-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000x32 : Shape := ⟨2, ![600000, 32]⟩
abbrev S288x128 : Shape := ⟨2, ![288, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S2x600000 : Shape := ⟨2, ![2, 600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x32 : S_.BroadcastsInDim S600000x32 (![] : Fin 0 → Fin S600000x32.rank)
  reducesTo_S600000x32_S_d0_1 : S600000x32.ReducesTo [0, 1] S_
  bcast_S_S288x128 : S_.BroadcastsInDim S288x128 (![] : Fin 0 → Fin S288x128.rank)
  reducesTo_S288x128_S_d0_1 : S288x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S2x600000 : S_.BroadcastsInDim S2x600000 (![] : Fin 0 → Fin S2x600000.rank)
  reducesTo_S2x600000_S_d0_1 : S2x600000.ReducesTo [0, 1] S_

variable [Facts]

def fn_part3 {F : FTy → Type} [FloatOps F] (main_arg11 : FVec F S128 .f32) (main_arg12 : IVec S2x600000 32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_c_22 : IVec S_ 32 := constantI S_ 32 0#32
  let main_v59 : IVec S2x600000 32 := broadcastInDim S2x600000 ![] bcast_S_S2x600000 main_c_22
  let main_v60 : IVec S2x600000 1 := cmpi .sge main_arg12 main_v59
  let main_c_23 : IVec S_ 32 := constantI S_ 32 100000#32
  let main_v61 : IVec S2x600000 32 := broadcastInDim S2x600000 ![] bcast_S_S2x600000 main_c_23
  let main_v62 : IVec S2x600000 1 := cmpi .slt main_arg12 main_v61
  let main_v63 : IVec S2x600000 1 := andi main_v60 main_v62
  let main_c_24 : IVec S_ 1 := constantI S_ 1 1#1
  let main_v64 : IVec S_ 1 := (fun x v => Host.reduce IntOp.andi x v reducesTo_S2x600000_S_d0_1 h_S_) main_v63 main_c_24
  let main_v65 : IVec S_ 1 := andi main_v58 main_v64
  main_v65

def fn_part2 {F : FTy → Type} [FloatOps F] (main_arg7 : FVec F S1 .f32) (main_arg8 : FVec F S256x128 .f32) (main_arg9 : FVec F S128 .f32) (main_arg10 : FVec F S128x128 .f32) (main_arg11 : FVec F S128 .f32) (main_arg12 : IVec S2x600000 32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_v48 main_v49 main_v50

def fn_part1 {F : FTy → Type} [FloatOps F] (main_arg4 : FVec F S128x128 .f32) (main_arg5 : FVec F S128 .f32) (main_arg6 : FVec F S128x1 .f32) (main_arg7 : FVec F S1 .f32) (main_arg8 : FVec F S256x128 .f32) (main_arg9 : FVec F S128 .f32) (main_arg10 : FVec F S128x128 .f32) (main_arg11 : FVec F S128 .f32) (main_arg12 : IVec S2x600000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S100000x128 .f32) (main_arg1 : FVec F S600000x32 .f32) (main_arg2 : FVec F S288x128 .f32) (main_arg3 : FVec F S128 .f32) (main_arg4 : FVec F S128x128 .f32) (main_arg5 : FVec F S128 .f32) (main_arg6 : FVec F S128x1 .f32) (main_arg7 : FVec F S1 .f32) (main_arg8 : FVec F S256x128 .f32) (main_arg9 : FVec F S128 .f32) (main_arg10 : FVec F S128x128 .f32) (main_arg11 : FVec F S128 .f32) (main_arg12 : IVec S2x600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x32 .f32 := Host.absf main_arg1
  let main_cst_0 : FVec F S_ .f32 := constant S_ .f32 0x7F800000#32
  let main_v5 : FVec F S600000x32 .f32 := broadcastInDim S600000x32 ![] bcast_S_S600000x32 main_cst_0
  let main_v6 : IVec S600000x32 1 := cmpf .olt main_v4 main_v5
  let main_c_1 : IVec S_ 1 := constantI S_ 1 1#1
  let main_v7 : IVec S_ 1 := (fun x v => Host.reduce IntOp.andi x v reducesTo_S600000x32_S_d0_1 h_S_) main_v6 main_c_1
  let main_v8 : IVec S_ 1 := andi main_v3 main_v7
  let main_v9 : FVec F S288x128 .f32 := Host.absf main_arg2
  let main_cst_2 : FVec F S_ .f32 := constant S_ .f32 0x7F800000#32
  let main_v10 : FVec F S288x128 .f32 := broadcastInDim S288x128 ![] bcast_S_S288x128 main_cst_2
  let main_v11 : IVec S288x128 1 := cmpf .olt main_v9 main_v10
  let main_c_3 : IVec S_ 1 := constantI S_ 1 1#1
  let main_v12 : IVec S_ 1 := (fun x v => Host.reduce IntOp.andi x v reducesTo_S288x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_v13 main_v16
-- ==== Kernel.lean ====
abbrev S100000x128 : Shape := ⟨2, ![100000, 128]⟩
abbrev S600000x32 : Shape := ⟨2, ![600000, 32]⟩
abbrev S288x128 : Shape := ⟨2, ![288, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x1 : Shape := ⟨2, ![1, 1]⟩
abbrev S600000x128 : Shape := ⟨2, ![600000, 128]⟩
abbrev S32x128 : Shape := ⟨2, ![32, 128]⟩
abbrev S1x128 : Shape := ⟨2, ![1, 128]⟩
abbrev S602112x128 : Shape := ⟨2, ![602112, 128]⟩
abbrev S602112x32 : Shape := ⟨2, ![602112, 32]⟩
abbrev S4096x128 : Shape := ⟨2, ![4096, 128]⟩
abbrev S4096x32 : Shape := ⟨2, ![4096, 32]⟩
abbrev S102400x128 : Shape := ⟨2, ![102400, 128]⟩

abbrev nBuf : Space → Nat
  | .hbm => 115
  | .vmem => 25
  | .smem => 0
  | _ => 0

abbrev bufTy : (tb : Table) → Fin (tcTables nBuf tb) → BufTy
  | .hbm, ⟨0, _⟩ => ⟨S100000x128, .f32⟩
  | .hbm, ⟨1, _⟩ => ⟨S600000x32, .f32⟩
  | .hbm, ⟨2, _⟩ => ⟨S288x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S2x600000, .i32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S1, .i32⟩
  | .hbm, ⟨26, _⟩ => ⟨S_, .i32⟩
  | .hbm, ⟨27, _⟩ => ⟨S600000x1, .i32⟩
  | .hbm, ⟨28, _⟩ => ⟨S600000x1, .i1⟩
  | .hbm, ⟨29, _⟩ => ⟨S1x1, .i32⟩
  | .hbm, ⟨30, _⟩ => ⟨S600000x1, .i32⟩
  | .hbm, ⟨31, _⟩ => ⟨S600000x1, .i1⟩
  | .hbm, ⟨32, _⟩ => ⟨S600000x1, .i1⟩
  | .hbm, ⟨33, _⟩ => ⟨S_, .i1⟩
  | .hbm, ⟨34, _⟩ => ⟨S600000, .i1⟩
  | .hbm, ⟨35, _⟩ => ⟨S600000x128, .f32⟩
  | .hbm, ⟨36, _⟩ => ⟨S600000x128, .i1⟩
  | .hbm, ⟨37, _⟩ => ⟨S_, .f32⟩
  | .hbm, ⟨38, _⟩ => ⟨S600000x128, .f32⟩
  | .hbm, ⟨39, _⟩ => ⟨S600000x128, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S1, .i32⟩
  | .hbm, ⟨49, _⟩ => ⟨S_, .i32⟩
  | .hbm, ⟨50, _⟩ => ⟨S600000x1, .i32⟩
  | .hbm, ⟨51, _⟩ => ⟨S600000x1, .i1⟩
  | .hbm, ⟨52, _⟩ => ⟨S1x1, .i32⟩
  | .hbm, ⟨53, _⟩ => ⟨S600000x1, .i32⟩
  | .hbm, ⟨54, _⟩ => ⟨S600000x1, .i1⟩
  | .hbm, ⟨55, _⟩ => ⟨S600000x1, .i1⟩
  | .hbm, ⟨56, _⟩ => ⟨S_, .i1⟩
  | .hbm, ⟨57, _⟩ => ⟨S600000, .i1⟩
  | .hbm, ⟨58, _⟩ => ⟨S600000x128, .f32⟩
  | .hbm, ⟨59, _⟩ => ⟨S600000x128, .i1⟩
  | .hbm, ⟨60, _⟩ => ⟨S_, .f32⟩
  | .hbm, ⟨61, _⟩ => ⟨S600000x128, .f32⟩
  | .hbm, ⟨62, _⟩ => ⟨S600000x128, .f32⟩
  | .hbm, ⟨63, _⟩ => ⟨S128x128, .f32⟩
  | .hbm, ⟨64, _⟩ => ⟨S128x128, .f32⟩
  | .hbm, ⟨65, _⟩ => ⟨S32x128, .f32⟩
  | .hbm, ⟨66, _⟩ => ⟨S1x128, .f32⟩
  | .hbm, ⟨67, _⟩ => ⟨S1x128, .f32⟩
  | .hbm, ⟨68, _⟩ => ⟨S_, .i32⟩
  | .hbm, ⟨69, _⟩ => ⟨S_, .f32⟩
  | .hbm, ⟨70, _⟩ => ⟨S602112x128, .f32⟩
  | .hbm, ⟨71, _⟩ => ⟨S_, .i32⟩
  | .hbm, ⟨72, _⟩ => ⟨S_, .f32⟩
  | .hbm, ⟨73, _⟩ => ⟨S602112x128, .f32⟩
  | .hbm, ⟨74, _⟩ => ⟨S_, .i32⟩
  | .hbm, ⟨75, _⟩ => ⟨S_, .f32⟩
  | .hbm, ⟨76, _⟩ => ⟨S602112x32, .f32⟩
  | .hbm, ⟨77, _⟩ => ⟨S602112x128, .f32⟩
  | .hbm, ⟨78, _⟩ => ⟨S600000x128, .f32⟩
  | .hbm, ⟨79, _⟩ => ⟨S600000x1, .f32⟩
  | .hbm, ⟨80, _⟩ => ⟨S1x1, .f32⟩
  | .hbm, ⟨81, _⟩ => ⟨S600000x1, .f32⟩
  | .hbm, ⟨82, _⟩ => ⟨S600000x1, .f32⟩
  | .hbm, ⟨83, _⟩ => ⟨S_, .f32⟩
  | .hbm, ⟨84, _⟩ => ⟨S1, .f32⟩
  | .hbm, ⟨85, _⟩ => ⟨S_, .f32⟩
  | .hbm, ⟨86, _⟩ => ⟨S1, .f32⟩
  | .hbm, ⟨87, _⟩ => ⟨S1, .f32⟩
  | .hbm, ⟨88, _⟩ => ⟨S1x1, .f32⟩
  | .hbm, ⟨89, _⟩ => ⟨S600000x1, .f32⟩
  | .hbm, ⟨90, _⟩ => ⟨S600000x1, .f32⟩
  | .hbm, ⟨91, _⟩ => ⟨S600000x1, .f32⟩
  | .hbm, ⟨92, _⟩ => ⟨S_, .f32⟩
  | .hbm, ⟨93, _⟩ => ⟨S1, .f32⟩
  | .hbm, ⟨94, _⟩ => ⟨S1x1, .f32⟩
  | .hbm, ⟨95, _⟩ => ⟨S600000x1, .f32⟩
  | .hbm, ⟨96, _⟩ => ⟨S600000x1, .f32⟩
  | .hbm, ⟨97, _⟩ => ⟨S600000x128, .f32⟩
  | .hbm, ⟨98, _⟩ => ⟨S600000x128, .f32⟩
  | .hbm, ⟨99, _⟩ => ⟨S_, .f32⟩
  | .hbm, ⟨100, _⟩ => ⟨S100000x128, .f32⟩
  | .hbm, ⟨101, _⟩ => ⟨S600000x1, .i32⟩
  | .hbm, ⟨102, _⟩ => ⟨S100000x128, .f32⟩
  | .hbm, ⟨103, _⟩ => ⟨S128x128, .f32⟩
  | .hbm, ⟨104, _⟩ => ⟨S128x128, .f32⟩
  | .hbm, ⟨105, _⟩ => ⟨S1x128, .f32⟩
  | .hbm, ⟨106, _⟩ => ⟨S1x128, .f32⟩
  | .hbm, ⟨107, _⟩ => ⟨S_, .i32⟩
  | .hbm, ⟨108, _⟩ => ⟨S_, .f32⟩
  | .hbm, ⟨109, _⟩ => ⟨S102400x128, .f32⟩
  | .hbm, ⟨110, _⟩ => ⟨S_, .i32⟩
  | .hbm, ⟨111, _⟩ => ⟨S_, .f32⟩
  | .hbm, ⟨112, _⟩ => ⟨S102400x128, .f32⟩
  | .hbm, ⟨113, _⟩ => ⟨S102400x128, .f32⟩
  | .hbm, ⟨114, _⟩ => ⟨S100000x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x32, .f32⟩
  | .local _ .vmem, ⟨5, _⟩ => ⟨S4096x32, .f32⟩
  | .local _ .vmem, ⟨6, _⟩ => ⟨S128x128, .f32⟩
  | .local _ .vmem, ⟨7, _⟩ => ⟨S128x128, .f32⟩
  | .local _ .vmem, ⟨8, _⟩ => ⟨S32x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S4096x128, .f32⟩
  | .local _ .vmem, ⟨24, _⟩ => ⟨S4096x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_c : Ref sig .tc := ⟨.hbm, 68, rfl⟩
abbrev main_call2_v0 : Ref sig .tc := ⟨.hbm, 69, rfl⟩
abbrev main_v11 : Ref sig .tc := ⟨.hbm, 70, rfl⟩
abbrev main_c_0 : Ref sig .tc := ⟨.hbm, 71, rfl⟩
abbrev main_call3_v0 : Ref sig .tc := ⟨.hbm, 72, rfl⟩
abbrev main_v12 : Ref sig .tc := ⟨.hbm, 73, rfl⟩
abbrev main_c_1 : Ref sig .tc := ⟨.hbm, 74, rfl⟩
abbrev main_call4_v0 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_cst : Ref sig .tc := ⟨.hbm, 83, rfl⟩
abbrev main_v20 : Ref sig .tc := ⟨.hbm, 84, rfl⟩
abbrev main_cst_2 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_cst_3 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_cst_4 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_c_5 : Ref sig .tc := ⟨.hbm, 107, rfl⟩
abbrev main_call5_v0 : Ref sig .tc := ⟨.hbm, 108, rfl⟩
abbrev main_v40 : Ref sig .tc := ⟨.hbm, 109, rfl⟩
abbrev main_c_6 : Ref sig .tc := ⟨.hbm, 110, rfl⟩
abbrev main_call6_v0 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![147], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  slices_S288x128_S128x128_0_0 : S288x128.Slices ![0, 0] S128x128
  slices_S288x128_S128x128_128_0 : S288x128.Slices ![128, 0] S128x128
  slices_S288x128_S32x128_256_0 : S288x128.Slices ![256, 0] S32x128
  shapeCasts_S128_S1x128 : S128.ShapeCasts S1x128
  pads_S600000x128_S602112x128_021120_000 : S600000x128.Pads (![0, 0] : Fin 2 → Nat) ![2112, 0] ![0, 0] S602112x128
  pads_S600000x32_S602112x32_021120_000 : S600000x32.Pads (![0, 0] : Fin 2 → Nat) ![2112, 0] ![0, 0] S602112x32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  slices_S602112x128_S600000x128_0_0 : S602112x128.Slices ![0, 0] S600000x128
  reducesTo_S600000x1_S1_d0 : S600000x1.ReducesTo [0] S1
  bcast_S_S1 : S_.BroadcastsInDim S1 (![] : Fin 0 → Fin S1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  slices_S256x128_S128x128_0_0 : S256x128.Slices ![0, 0] S128x128
  slices_S256x128_S128x128_128_0 : S256x128.Slices ![128, 0] S128x128
  pads_S100000x128_S102400x128_024000_000 : S100000x128.Pads (![0, 0] : Fin 2 → Nat) ![2400, 0] ![0, 0] S102400x128
  slices_S102400x128_S100000x128_0_0 : S102400x128.Slices ![0, 0] S100000x128
  gather_S100000x128_S600000x1_S600000x128_1_0_n_n_0_1_1128_wf : GatherDims.WF S100000x128 S600000x1 S600000x128 [1] [0] [] [0] [] 1 ![1, 128]
  dot_S4096x128_S128x128_S4096x128_1_0_0_1_n_n_wf : DotDims.WF S4096x128 S128x128 S4096x128 [1] [0] [0] [1] [] []
  dot_S4096x32_S32x128_S4096x128_1_0_0_1_n_n_wf : DotDims.WF S4096x32 S32x128 S4096x128 [1] [0] [0] [1] [] []
  dot_S600000x128_S128x1_S600000x1_1_0_0_1_n_n_wf : DotDims.WF S600000x128 S128x1 S600000x1 [1] [0] [0] [1] [] []
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S602112x128.size a
  hwx0_0 : ∀ i : grid0.Coords, EltTy.bits .f32 = 32 ∨ (Rect.block (s := S602112x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S602112x128.size a
  hwx0_1 : ∀ i : grid0.Coords, EltTy.bits .f32 = 32 ∨ (Rect.block (s := S602112x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x32.size a ≤ S602112x32.size a
  hwx0_2 : ∀ i : grid0.Coords, EltTy.bits .f32 = 32 ∨ (Rect.block (s := S602112x32) S4096x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x128.size a ≤ S602112x128.size a
  hwx0_9 : ∀ i : grid0.Coords, EltTy.bits .f32 = 32 ∨ (Rect.block (s := S602112x128) S4096x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S102400x128.size a
  hwx1_0 : ∀ i : grid1.Coords, EltTy.bits .f32 = 32 ∨ (Rect.block (s := S102400x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S102400x128.size a
  hwx1_1 : ∀ i : grid1.Coords, EltTy.bits .f32 = 32 ∨ (Rect.block (s := S102400x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4096x128.size a ≤ S102400x128.size a
  hwx1_7 : ∀ i : grid1.Coords, EltTy.bits .f32 = 32 ∨ (Rect.block (s := S102400x128) S4096x128.size (cc1_transform_7 i) (hinb1_7 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x32_S32x128_S4096x128_1_0_0_1_n_n : DotDims S4096x32 S32x128 S4096x128 where
  lhsContracting := [1]
  rhsContracting := [0]
  lhsNonContracting := [0]
  rhsNonContracting := [1]
  lhsBatch := []
  rhsBatch := []
  wf := dot_S4096x32_S32x128_S4096x128_1_0_0_1_n_n_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_v11) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4096x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S4096x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v40) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S4096x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S600000x32 : Shape := ⟨2, ![600000, 32]⟩
abbrev S288x128 : Shape := ⟨2, ![288, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x288 : Shape := ⟨2, ![600000, 288]⟩
abbrev S1x128 : Shape := ⟨2, ![1, 128]⟩
abbrev S1x1 : Shape := ⟨2, ![1, 1]⟩
abbrev S100000x256 : Shape := ⟨2, ![100000, 256]⟩

abbrev nBuf : Space → Nat
  | .hbm => 84
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000x32, .f32⟩
  | .hbm, ⟨2, _⟩ => ⟨S288x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S2x600000, .i32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .f32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .f32⟩
  | .hbm, ⟨35, _⟩ => ⟨S600000x288, .f32⟩
  | .hbm, ⟨36, _⟩ => ⟨S600000x128, .f32⟩
  | .hbm, ⟨37, _⟩ => ⟨S1x128, .f32⟩
  | .hbm, ⟨38, _⟩ => ⟨S600000x128, .f32⟩
  | .hbm, ⟨39, _⟩ => ⟨S600000x128, .f32⟩
  | .hbm, ⟨40, _⟩ => ⟨S_, .f32⟩
  | .hbm, ⟨41, _⟩ => ⟨S600000x128, .f32⟩
  | .hbm, ⟨42, _⟩ => ⟨S600000x128, .f32⟩
  | .hbm, ⟨43, _⟩ => ⟨S600000x128, .f32⟩
  | .hbm, ⟨44, _⟩ => ⟨S1x128, .f32⟩
  | .hbm, ⟨45, _⟩ => ⟨S600000x128, .f32⟩
  | .hbm, ⟨46, _⟩ => ⟨S600000x128, .f32⟩
  | .hbm, ⟨47, _⟩ => ⟨S600000x1, .f32⟩
  | .hbm, ⟨48, _⟩ => ⟨S1x1, .f32⟩
  | .hbm, ⟨49, _⟩ => ⟨S600000x1, .f32⟩
  | .hbm, ⟨50, _⟩ => ⟨S600000x1, .f32⟩
  | .hbm, ⟨51, _⟩ => ⟨S_, .f32⟩
  | .hbm, ⟨52, _⟩ => ⟨S1, .f32⟩
  | .hbm, ⟨53, _⟩ => ⟨S_, .f32⟩
  | .hbm, ⟨54, _⟩ => ⟨S1, .f32⟩
  | .hbm, ⟨55, _⟩ => ⟨S1, .f32⟩
  | .hbm, ⟨56, _⟩ => ⟨S1x1, .f32⟩
  | .hbm, ⟨57, _⟩ => ⟨S600000x1, .f32⟩
  | .hbm, ⟨58, _⟩ => ⟨S600000x1, .f32⟩
  | .hbm, ⟨59, _⟩ => ⟨S600000x1, .f32⟩
  | .hbm, ⟨60, _⟩ => ⟨S_, .f32⟩
  | .hbm, ⟨61, _⟩ => ⟨S1, .f32⟩
  | .hbm, ⟨62, _⟩ => ⟨S1x1, .f32⟩
  | .hbm, ⟨63, _⟩ => ⟨S600000x1, .f32⟩
  | .hbm, ⟨64, _⟩ => ⟨S600000x1, .f32⟩
  | .hbm, ⟨65, _⟩ => ⟨S600000x128, .f32⟩
  | .hbm, ⟨66, _⟩ => ⟨S600000x128, .f32⟩
  | .hbm, ⟨67, _⟩ => ⟨S_, .f32⟩
  | .hbm, ⟨68, _⟩ => ⟨S100000x128, .f32⟩
  | .hbm, ⟨69, _⟩ => ⟨S600000x1, .i32⟩
  | .hbm, ⟨70, _⟩ => ⟨S100000x128, .f32⟩
  | .hbm, ⟨71, _⟩ => ⟨S100000x256, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_cst : Ref sig .tc := ⟨.hbm, 40, rfl⟩
abbrev main_call0_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst : Ref sig .tc := ⟨.hbm, 51, rfl⟩
abbrev main_v32 : Ref sig .tc := ⟨.hbm, 52, rfl⟩
abbrev main_cst_3 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call1_cst : Ref sig .tc := ⟨.hbm, 76, rfl⟩
abbrev main_call1_v0 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x32_S600000x288_d1 : Shape.Concatenates [S600000x128, S600000x128, S600000x32] S600000x288 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S1_d0 : S600000x1.ReducesTo [0] S1
  h_S_ : 0 < S_.numel
  bcast_S_S1 : S_.BroadcastsInDim S1 (![] : Fin 0 → Fin S1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  dot_S600000x288_S288x128_S600000x128_1_0_0_1_n_n_wf : DotDims.WF S600000x288 S288x128 S600000x128 [1] [0] [0] [1] [] []
  dot_S600000x128_S128x128_S600000x128_1_0_0_1_n_n_wf : DotDims.WF S600000x128 S128x128 S600000x128 [1] [0] [0] [1] [] []
  dot_S600000x128_S128x1_S600000x1_1_0_0_1_n_n_wf : DotDims.WF S600000x128 S128x1 S600000x1 [1] [0] [0] [1] [] []
  scatter_S100000x128_S600000x1_S600000x128_1_0_0_1_wf : ScatterDims.WF S100000x128 S600000x1 S600000x128 [1] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x288_S288x128_S600000x128_1_0_0_1_n_n : DotDims S600000x288 S288x128 S600000x128 where
  lhsContracting := [1]
  rhsContracting := [0]
  lhsNonContracting := [0]
  rhsNonContracting := [1]
  lhsBatch := []
  rhsBatch := []
  wf := dot_S600000x288_S288x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelTerms.lean ====
/-
  The host-side operations of the tiled program, named: the row of end-node numbers, its wrap of negative numbers, the
  in-range test and the filled gather that `take` lowers to, the zero padding of the rows to a multiple of the tile, and the
  chain from the messages to what each node receives (attention logit, softmax over all edges, weighting, scatter-add).
-/
import proofs.«412851_j57251914056302_1_alg».proof.Proof.Gen.KernelIdeal

noncomputable section

namespace Cert.KernelIdeal.Terms

open Cert.KernelIdeal
open Idealize.ShloMosaic Idealize.ShloMosaic.TcCoe Idealize.SL.Sem
open Facts₀ Facts

variable {F : FTy → Type} [FloatOps F]

/-- Row 0 of the edge list: each edge's first end node. -/
def rowOf (x12 : IVec S2x600000 32) : IVec S600000 32 :=
  shapeCast S600000 (extractStridedSlice S1x600000 ![0, 0] x12 slices_S2x600000_S1x600000_0_0) shapeCasts_S1x600000_S600000

/-- Row 1 of the edge list: each edge's second end node. -/
def colOf (x12 : IVec S2x600000 32) : IVec S600000 32 :=
  shapeCast S600000 (extractStridedSlice S1x600000 ![1, 0] x12 slices_S2x600000_S1x600000_1_0) shapeCasts_S1x600000_S600000

/-- A negative node number counts from the end: `i + 100000` where `i < 0`; as a column of start indices. -/
def wrapIdx (idx : IVec S600000 32) : IVec S600000x1 32 :=
  broadcastInDim S600000x1 ![0] bcast_S600000_S600000x1_0
    (select (cmpi .slt idx (broadcastInDim S600000 ![] bcast_S_S600000 (constantI S_ 32 0#32)))
      (addi idx (broadcastInDim S600000 ![] bcast_S_S600000 (constantI S_ 32 100000#32))) idx)

/-- Per edge: is the wrapped number a row of the node table, `0 ≤ i ≤ 99999`? -/
def inBounds (i5 : IVec S600000x1 32) : IVec S600000 1 :=
  Host.reduce IntOp.andi
    (andi (cmpi .sge i5 (broadcastInDim S600000x1 ![] bcast_S_S600000x1 (constantI S_ 32 0#32)))
      (cmpi .sle i5 (broadcastInDim S600000x1 ![0, 1] bcast_S1x1_S600000x1_0_1
        (broadcastInDim S1x1 ![1] bcast_S1_S1x1_1 (constantI S1 32 99999#32)))))
    (constantI S_ 1 1#1) reducesTo_S600000x1_S600000_d1 h_S_

/-- The gather of node rows with the out-of-range rows filled by the fill word. -/
def takeK (x0 : Vec F S100000x128 .f32) (idx : IVec S600000 32) : Vec F S600000x128 .f32 :=
  select (broadcastInDim S600000x128 ![0] bcast_S600000_S600000x128_0 (inBounds (wrapIdx idx)))
    (Host.gather gather_S100000x128_S600000x1_S600000x128_1_0_n_n_0_1_1128 x0 (wrapIdx idx))
    (broadcastInDim S600000x128 ![] bcast_S_S600000x128 (constant S_ .f32 0x7FC00000#32))

/-- The rows padded with zero rows up to a multiple of the tile (600000 → 602112 rows), 128 columns. -/
def padE128 (x : Vec F S600000x128 .f32) : Vec F S602112x128 .f32 :=
  pad S602112x128 ![0, 0] ![2112, 0] ![0, 0] x (sitofp .f32 (constantI S_ 32 0#32)) pads_S600000x128_S602112x128_021120_000 h_S_

/-- The same for the 32-column edge features. -/
def padE32 (x : Vec F S600000x32 .f32) : Vec F S602112x32 .f32 :=
  pad S602112x32 ![0, 0] ![2112, 0] ![0, 0] x (sitofp .f32 (constantI S_ 32 0#32)) pads_S600000x32_S602112x32_021120_000 h_S_

/-- The node rows padded with zero rows (100000 → 102400 rows). -/
def padN (x : Vec F S100000x128 .f32) : Vec F S102400x128 .f32 :=
  pad S102400x128 ![0, 0] ![2400, 0] ![0, 0] x (sitofp .f32 (constantI S_ 32 0#32)) pads_S100000x128_S102400x128_024000_000 h_S_

/-- The first 600000 rows of the padded message array. -/
def sliceE (y : Vec F S602112x128 .f32) : Vec F S600000x128 .f32 :=
  extractStridedSlice S600000x128 ![0, 0] y slices_S602112x128_S600000x128_0_0

/-- The first 100000 rows of the padded result array. -/
def sliceN (y : Vec F S102400x128 .f32) : Vec F S100000x128 .f32 :=
  extractStridedSlice S100000x128 ![0, 0] y slices_S102400x128_S100000x128_0_0

/-- The three row bands of the first message weight matrix: rows 0–127, 128–255, 256–287. -/
def band1r (w : Vec F S288x128 .f32) : Vec F S128x128 .f32 := extractStridedSlice S128x128 ![0, 0] w slices_S288x128_S128x128_0_0
def band1c (w : Vec F S288x128 .f32) : Vec F S128x128 .f32 := extractStridedSlice S128x128 ![128, 0] w slices_S288x128_S128x128_128_0
def band1e (w : Vec F S288x128 .f32) : Vec F S32x128 .f32 := extractStridedSlice S32x128 ![256, 0] w slices_S288x128_S32x128_256_0

/-- The two row bands of the first update weight matrix: rows 0–127, 128–255. -/
def band2n (w : Vec F S256x128 .f32) : Vec F S128x128 .f32 := extractStridedSlice S128x128 ![0, 0] w slices_S256x128_S128x128_0_0
def band2a (w : Vec F S256x128 .f32) : Vec F S128x128 .f32 := extractStridedSlice S128x128 ![128, 0] w slices_S256x128_S128x128_128_0

/-- A bias vector as a one-row matrix. -/
def rowVec (b : Vec F S128 .f32) : Vec F S1x128 .f32 := shapeCast S1x128 b shapeCasts_S128_S1x128

/-- The attention logit of every edge: the message times the attention column, plus its bias. -/
def logitsOf (msgs : Vec F S600000x128 .f32) (aW : Vec F S128x1 .f32) (ab : Vec F S1 .f32) : Vec F S600000x1 .f32 :=
  addf (Host.dotGeneral dot_S600000x128_S128x1_S600000x1_1_0_0_1_n_n none msgs aW)
    (broadcastInDim S600000x1 ![0, 1] bcast_S1x1_S600000x1_0_1 (broadcastInDim S1x1 ![1] bcast_S1_S1x1_1 ab))

/-- The softmax over ALL edges of the logits: shift by the maximum, exponentiate, divide by the sum. -/
def attnOf (lg : Vec F S600000x1 .f32) : Vec F S600000x1 .f32 :=
  Host.divf
    (Host.exp (subf lg (broadcastInDim S600000x1 ![0, 1] bcast_S1x1_S600000x1_0_1 (broadcastInDim S1x1 ![1] bcast_S1_S1x1_1
      (maximumf (broadcastInDim S1 ![] bcast_S_S1 (constant S_ .f32 0xFF800000#32))
        (Host.reduce FloatOps.maximumf lg (constant S_ .f32 0xFF800000#32) reducesTo_S600000x1_S1_d0 h_S_))))))
    (broadcastInDim S600000x1 ![0, 1] bcast_S1x1_S600000x1_0_1 (broadcastInDim S1x1 ![1] bcast_S1_S1x1_1
      (Host.reduceAdd
        (Host.exp (subf lg (broadcastInDim S600000x1 ![0, 1] bcast_S1x1_S600000x1_0_1 (broadcastInDim S1x1 ![1] bcast_S1_S1x1_1
          (maximumf (broadcastInDim S1 ![] bcast_S_S1 (constant S_ .f32 0xFF800000#32))
            (Host.reduce FloatOps.maximumf lg (constant S_ .f32 0xFF800000#32) reducesTo_S600000x1_S1_d0 h_S_))))))
        (constant S_ .f32 0x00000000#32) reducesTo_S600000x1_S1_d0 h_S_)))

/-- What every node receives: each message weighted by its edge's attention, added into the row of the edge's second
    end node. -/
def midK (msgs : Vec F S600000x128 .f32) (aW : Vec F S128x1 .f32) (ab : Vec F S1 .f32) (col : IVec S600000 32) : Vec F S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 col)
    (mulf msgs (broadcastInDim S600000x128 ![0, 1] bcast_S600000x1_S600000x128_0_1 (attnOf (logitsOf msgs aW ab))))

end Cert.KernelIdeal.Terms

end
-- ==== Proof.Spec.lean ====
/-
  The mathematics of the two perceptrons, over plain functions of row and column numbers.

  A dense layer sends a row `x` to `x · W + b`; the rectifier takes `max v 0` entry by entry. The message of an edge is
  two dense layers, the first rectified, of the row `[r | c | e]` — the features of the edge's two end nodes and the edge's
  own features laid end to end (288 = 128 + 128 + 32 entries). A node's new value is two dense layers, the first rectified,
  of `[x | a]` — the node's features and what its incoming edges sent (256 = 128 + 128 entries) — plus `x` itself.

  One program forms `[r | c | e] · W` as ONE sum over 288 products; the other multiplies the three pieces with the three
  row bands of `W` and adds the three partial sums. On the extended reals addition is commutative and associative with
  no side condition, so a sum over 288 indices is the sum over its first 128, its next 128 and its last 32: the two
  arrangements are the same number whatever the entries are (no finiteness is used).
-/
import Mathlib.Data.EReal.Operations
import Mathlib.Algebra.BigOperators.Fin

noncomputable section

namespace Cert.Spec

open Finset

/-- `x · W + b`, read at column `j`. -/
def dense {K : ℕ} (x : Fin K → EReal) (W : Fin K → Fin 128 → EReal) (b : Fin 128 → EReal) (j : Fin 128) : EReal :=
  (∑ k, x k * W k j) + b j

/-- The rectifier, entry by entry. -/
def relu (v : Fin 128 → EReal) (j : Fin 128) : EReal := max (v j) 0

/-- Three rows laid end to end: 128, 128 and 32 entries. -/
def cat3 (x0 x1 : Fin 128 → EReal) (x2 : Fin 32 → EReal) (k : Fin 288) : EReal :=
  if h : k.val < 128 then x0 ⟨k.val, h⟩
  else if h' : k.val < 256 then x1 ⟨k.val - 128, by omega⟩
  else x2 ⟨k.val - 256, by have := k.isLt; omega⟩

/-- Two rows of 128 entries laid end to end. -/
def cat2 (x0 x1 : Fin 128 → EReal) (k : Fin 256) : EReal :=
  if h : k.val < 128 then x0 ⟨k.val, h⟩ else x1 ⟨k.val - 128, by have := k.isLt; omega⟩

/-- A sum over 256 indices is the sum over the first 128 plus the sum over the last 128. -/
theorem sum256 (g : Fin 256 → EReal) :
    ∑ k : Fin 256, g k = (∑ k : Fin 128, g ⟨k.val, by omega⟩) + ∑ k : Fin 128, g ⟨128 + k.val, by omega⟩ :=
  Fin.sum_univ_add (a := 128) (b := 128) g

/-- A sum over 288 indices is the sum over the first 128, the next 128 and the last 32. -/
theorem sum288 (f : Fin 288 → EReal) :
    ∑ k : Fin 288, f k
      = ((∑ k : Fin 128, f ⟨k.val, by omega⟩) + (∑ k : Fin 128, f ⟨128 + k.val, by omega⟩)) + ∑ k : Fin 32, f ⟨256 + k.val, by omega⟩ := by
  have e1 : ∑ k : Fin 288, f k = (∑ k : Fin 256, f ⟨k.val, by omega⟩) + ∑ k : Fin 32, f ⟨256 + k.val, by omega⟩ :=
    Fin.sum_univ_add (a := 256) (b := 32) f
  rw [e1, sum256]

/-- The first layer of the message, the three pieces multiplied with three separate weight bands. -/
def hid3 (x0 x1 : Fin 128 → EReal) (x2 : Fin 32 → EReal) (wr wc : Fin 128 → Fin 128 → EReal) (we : Fin 32 → Fin 128 → EReal)
    (b : Fin 128 → EReal) (j : Fin 128) : EReal :=
  (((∑ k, x0 k * wr k j) + (∑ k, x1 k * wc k j)) + (∑ k, x2 k * we k j)) + b j

/-- The first layer of the update, the two pieces multiplied with two separate weight bands. -/
def hid2 (x a : Fin 128 → EReal) (wn wa : Fin 128 → Fin 128 → EReal) (b : Fin 128 → EReal) (j : Fin 128) : EReal :=
  ((∑ k, x k * wn k j) + (∑ k, a k * wa k j)) + b j

/-- With the three bands cut out of ONE 288-row weight matrix, the three partial sums are the one sum. -/
theorem hid3_eq_dense (x0 x1 : Fin 128 → EReal) (x2 : Fin 32 → EReal) (W : Fin 288 → Fin 128 → EReal) (b : Fin 128 → EReal) :
    hid3 x0 x1 x2 (fun k => W ⟨k.val, by omega⟩) (fun k => W ⟨128 + k.val, by omega⟩) (fun k => W ⟨256 + k.val, by omega⟩) b
      = dense (cat3 x0 x1 x2) W b := by
  have e0 : ∀ k : Fin 128, cat3 x0 x1 x2 ⟨k.val, by omega⟩ = x0 k := fun k => by
    have hk : k.val < 128 := k.isLt
    simp [cat3, hk]
  have e1 : ∀ k : Fin 128, cat3 x0 x1 x2 ⟨128 + k.val, by omega⟩ = x1 k := fun k => by
    have hk : k.val < 128 := k.isLt
    have h1 : ¬ (128 + k.val < 128) := by omega
    have h2 : 128 + k.val < 256 := by omega
    simp [cat3, h1, h2]
  have e2 : ∀ k : Fin 32, cat3 x0 x1 x2 ⟨256 + k.val, by omega⟩ = x2 k := fun k => by
    have hk : k.val < 32 := k.isLt
    have h1 : ¬ (256 + k.val < 128) := by omega
    have h2 : ¬ (256 + k.val < 256) := by omega
    simp [cat3, h1, h2]
  funext j
  unfold hid3 dense
  rw [sum288]
  simp only [e0, e1, e2]

/-- With the two bands cut out of ONE 256-row weight matrix, the two partial sums are the one sum. -/
theorem hid2_eq_dense (x a : Fin 128 → EReal) (W : Fin 256 → Fin 128 → EReal) (b : Fin 128 → EReal) :
    hid2 x a (fun k => W ⟨k.val, by omega⟩) (fun k => W ⟨128 + k.val, by omega⟩) b = dense (cat2 x a) W b := by
  have e0 : ∀ k : Fin 128, cat2 x a ⟨k.val, by omega⟩ = x k := fun k => by
    have hk : k.val < 128 := k.isLt
    simp [cat2, hk]
  have e1 : ∀ k : Fin 128, cat2 x a ⟨128 + k.val, by omega⟩ = a k := fun k => by
    have hk : k.val < 128 := k.isLt
    have h1 : ¬ (128 + k.val < 128) := by omega
    simp [cat2, h1]
  funext j
  unfold hid2 dense
  rw [sum256]
  simp only [e0, e1]

/-- An edge's message from the three separate bands (the arrangement of the tiled program). -/
def msgRowK (x0 x1 : Fin 128 → EReal) (x2 : Fin 32 → EReal) (wr wc : Fin 128 → Fin 128 → EReal) (we : Fin 32 → Fin 128 → EReal)
    (b1 : Fin 128 → EReal) (W2 : Fin 128 → Fin 128 → EReal) (b2 : Fin 128 → EReal) : Fin 128 → EReal :=
  dense (relu (hid3 x0 x1 x2 wr wc we b1)) W2 b2

/-- An edge's message from the one 288-row matrix (the arrangement of the plain program). -/
def msgRow (x0 x1 : Fin 128 → EReal) (x2 : Fin 32 → EReal) (W1 : Fin 288 → Fin 128 → EReal)
    (b1 : Fin 128 → EReal) (W2 : Fin 128 → Fin 128 → EReal) (b2 : Fin 128 → EReal) : Fin 128 → EReal :=
  dense (relu (dense (cat3 x0 x1 x2) W1 b1)) W2 b2

/-- A node's new value from the two separate bands. -/
def updRowK (x a : Fin 128 → EReal) (wn wa : Fin 128 → Fin 128 → EReal) (c1 : Fin 128 → EReal)
    (U2 : Fin 128 → Fin 128 → EReal) (c2 : Fin 128 → EReal) (j : Fin 128) : EReal :=
  dense (relu (hid2 x a wn wa c1)) U2 c2 j + x j

/-- A node's new value from the one 256-row matrix. -/
def updRow (x a : Fin 128 → EReal) (U1 : Fin 256 → Fin 128 → EReal) (c1 : Fin 128 → EReal)
    (U2 : Fin 128 → Fin 128 → EReal) (c2 : Fin 128 → EReal) (j : Fin 128) : EReal :=
  dense (relu (dense (cat2 x a) U1 c1)) U2 c2 j + x j

theorem msgRowK_eq_msgRow (x0 x1 : Fin 128 → EReal) (x2 : Fin 32 → EReal) (W1 : Fin 288 → Fin 128 → EReal)
    (b1 : Fin 128 → EReal) (W2 : Fin 128 → Fin 128 → EReal) (b2 : Fin 128 → EReal) :
    msgRowK x0 x1 x2 (fun k => W1 ⟨k.val, by omega⟩) (fun k => W1 ⟨128 + k.val, by omega⟩) (fun k => W1 ⟨256 + k.val, by omega⟩) b1 W2 b2
      = msgRow x0 x1 x2 W1 b1 W2 b2 := by
  unfold msgRowK msgRow
  rw [hid3_eq_dense]

theorem updRowK_eq_updRow (x a : Fin 128 → EReal) (U1 : Fin 256 → Fin 128 → EReal) (c1 : Fin 128 → EReal)
    (U2 : Fin 128 → Fin 128 → EReal) (c2 : Fin 128 → EReal) :
    updRowK x a (fun k => U1 ⟨k.val, by omega⟩) (fun k => U1 ⟨128 + k.val, by omega⟩) c1 U2 c2 = updRow x a U1 c1 U2 c2 := by
  funext j
  unfold updRowK updRow
  rw [hid2_eq_dense]

end Cert.Spec

end
-- ==== Proof.Region0.lean ====
/-
  What the first tiled region leaves in its output array.

  The region runs over 147 points; point t reads rows 4096 t … 4096 t + 4095 of three row-blocked arrays (two of 128 columns,
  one of 32) and six whole small arrays (three weight bands, two one-row biases, a second weight matrix), and writes the same
  rows of the output. Its body is, row by row, a two-layer perceptron: three matrix products into zero accumulators added
  up, a bias, the rectifier, a fourth product, a second bias; rounding to a shorter format is the identity over the extended
  reals, and a product into a zero accumulator is the plain sum over the contracted index. Entry (r, q) of point t's block
  therefore depends only on row 4096 t + r of the row-blocked arrays, so every block is the restriction of ONE function G
  of the nine arrays; the 147 blocks cover all 602112 rows, so the array ends equal to G, and G at (p, q) is the row
  function of row p.
-/
import proofs.«412851_j57251914056302_1_alg».proof.Proof.Gen.KernelIdeal.Frame
import proofs.«412851_j57251914056302_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## A product of a row block with a square weight matrix, read at an entry -/

theorem lhsA_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhsA_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhsA_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhsA_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- A [4096,128] by [128,128] product into the zero accumulator, at entry (r, q): the sum over k of A(r,k) B(k,q). -/
theorem mmA_apply {φ₁ φ₂ : FTy} (A : FVec Ideal S4096x128 φ₁) (B : FVec Ideal S128x128 φ₂) (r : Fin 4096) (q : Fin 128) :
    matmul dot_S4096x128_S128x128_S4096x128_1_0_0_1_n_n none A B (constant (F := Ideal) S4096x128 .f32 0x00000000#32) (ix2 r q)
      = ∑ k : Fin 128, A (ix2 r k) * B (ix2 k q) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 r q) ((ValueIdx.contrEquiv1 dot_S4096x128_S128x128_S4096x128_1_0_0_1_n_n 128 rfl rfl).symm k) = ix2 r k := funext fun a => Fin.ext (by
    match a with
    | ⟨0, _⟩ => exact lhsA_0 _ _
    | ⟨1, _⟩ => exact (lhsA_1 _ _).trans hk)
  have er : dot_S4096x128_S128x128_S4096x128_1_0_0_1_n_n.rhsIdx (ix2 r q) ((ValueIdx.contrEquiv1 dot_S4096x128_S128x128_S4096x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-! ## A product of a [4096,32] row block with a [32,128] weight matrix, read at an entry -/

theorem lhsB_0 (i : S4096x128.Idx) (q : dot_S4096x32_S32x128_S4096x128_1_0_0_1_n_n.contr.Idx) :
    (dot_S4096x32_S32x128_S4096x128_1_0_0_1_n_n.lhsIdx i q 0).val = (i 0).val := by
  unfold DotDims.lhsIdx
  rw [dif_neg (show ¬(0 : Fin S4096x32.rank) ∈ dot_S4096x32_S32x128_S4096x128_1_0_0_1_n_n.lhsBatch by decide), dif_pos (show (0 : Fin S4096x32.rank) ∈ dot_S4096x32_S32x128_S4096x128_1_0_0_1_n_n.lhsNonContracting by decide)]
  rfl
theorem lhsB_1 (i : S4096x128.Idx) (q : dot_S4096x32_S32x128_S4096x128_1_0_0_1_n_n.contr.Idx) :
    (dot_S4096x32_S32x128_S4096x128_1_0_0_1_n_n.lhsIdx i q 1).val = (q ⟨0, by decide⟩).val :=
  dot_S4096x32_S32x128_S4096x128_1_0_0_1_n_n.lhsIdx_val_of_single rfl i q
theorem rhsB_0 (i : S4096x128.Idx) (q : dot_S4096x32_S32x128_S4096x128_1_0_0_1_n_n.contr.Idx) :
    (dot_S4096x32_S32x128_S4096x128_1_0_0_1_n_n.rhsIdx i q 0).val = (q ⟨0, by decide⟩).val :=
  dot_S4096x32_S32x128_S4096x128_1_0_0_1_n_n.rhsIdx_val_of_single rfl i q
theorem rhsB_1 (i : S4096x128.Idx) (q : dot_S4096x32_S32x128_S4096x128_1_0_0_1_n_n.contr.Idx) :
    (dot_S4096x32_S32x128_S4096x128_1_0_0_1_n_n.rhsIdx i q 1).val = (i 1).val := by
  unfold DotDims.rhsIdx
  rw [dif_neg (show ¬(1 : Fin S32x128.rank) ∈ dot_S4096x32_S32x128_S4096x128_1_0_0_1_n_n.rhsBatch by decide), dif_pos (show (1 : Fin S32x128.rank) ∈ dot_S4096x32_S32x128_S4096x128_1_0_0_1_n_n.rhsNonContracting by decide)]
  rfl

/-- A [4096,32] by [32,128] product into the zero accumulator, at entry (r, q): the sum over k of A(r,k) B(k,q). -/
theorem mmB_apply {φ₁ φ₂ : FTy} (A : FVec Ideal S4096x32 φ₁) (B : FVec Ideal S32x128 φ₂) (r : Fin 4096) (q : Fin 128) :
    matmul dot_S4096x32_S32x128_S4096x128_1_0_0_1_n_n none A B (constant (F := Ideal) S4096x128 .f32 0x00000000#32) (ix2 r q)
      = ∑ k : Fin 32, A (ix2 r k) * B (ix2 k q) := by
  simp only [matmul]
  rw [Ideal.matmul_constant_zero_apply, ← Equiv.sum_comp (ValueIdx.contrEquiv1 dot_S4096x32_S32x128_S4096x128_1_0_0_1_n_n 32 rfl rfl).symm]
  refine Finset.sum_congr rfl fun k _ => ?_
  have hk := ValueIdx.contrEquiv1_symm_val dot_S4096x32_S32x128_S4096x128_1_0_0_1_n_n 32 rfl rfl k
  have el : dot_S4096x32_S32x128_S4096x128_1_0_0_1_n_n.lhsIdx (ix2 r q) ((ValueIdx.contrEquiv1 dot_S4096x32_S32x128_S4096x128_1_0_0_1_n_n 32 rfl rfl).symm k) = ix2 r k := funext fun a => Fin.ext (by
    match a with
    | ⟨0, _⟩ => exact lhsB_0 _ _
    | ⟨1, _⟩ => exact (lhsB_1 _ _).trans hk)
  have er : dot_S4096x32_S32x128_S4096x128_1_0_0_1_n_n.rhsIdx (ix2 r q) ((ValueIdx.contrEquiv1 dot_S4096x32_S32x128_S4096x128_1_0_0_1_n_n 32 rfl rfl).symm k) = ix2 k q := funext fun a => Fin.ext (by
    match a with
    | ⟨0, _⟩ => exact (rhsB_0 _ _).trans hk
    | ⟨1, _⟩ => exact rhsB_1 _ _)
  rw [el, er]

/-- The bias row spread over the 4096 rows, read at entry (r, q): the bias at q. -/
theorem bias_apply (v : Vec Ideal S1x128 .f32) (r : Fin 4096) (q : Fin 128) :
    broadcastTo S4096x128 (shapeCast S1x128 v shapeCasts_S1x128_S1x128) broadcasts_S1x128_S4096x128 (ix2 r q) = v (ix2 (0 : Fin 1) q) := by
  rw [shapeCast_self]
  exact broadcastTo_1b_ab_apply v broadcasts_S1x128_S4096x128 r q

/-- The first layer at entry (r, q): the three partial sums, the bias, the rectifier. -/
theorem hidden_apply (x0 x1 : Vec Ideal S4096x128 .f32) (x2 : Vec Ideal S4096x32 .f32) (x3 x4 : Vec Ideal S128x128 .f32)
    (x5 : Vec Ideal S32x128 .f32) (x6 : Vec Ideal S1x128 .f32) (x7 : Vec Ideal S128x128 .f32) (r : Fin 4096) (q : Fin 128) :
    k0_pay2 (F := Ideal) x0 x1 x2 x3 x4 x5 x6 x7 (ix2 r q)
      = ∑ j : Fin 128, Cert.Spec.relu (Cert.Spec.hid3 (fun k => x0 (ix2 r k)) (fun k => x1 (ix2 r k)) (fun k => x2 (ix2 r k))
          (fun k' k => x3 (ix2 k' k)) (fun k' k => x4 (ix2 k' k)) (fun k' k => x5 (ix2 k' k)) (fun k => x6 (ix2 (0 : Fin 1) k))) j * x7 (ix2 j q) := by
  unfold k0_pay2
  refine (mmA_apply _ _ r q).trans ?_
  refine Finset.sum_congr rfl fun j _ => ?_
  refine congrArg (· * x7 (ix2 j q)) ?_
  show max (((matmul dot_S4096x128_S128x128_S4096x128_1_0_0_1_n_n none _ _ (constant (F := Ideal) S4096x128 .f32 0x00000000#32) (ix2 r j)
      + matmul dot_S4096x128_S128x128_S4096x128_1_0_0_1_n_n none _ _ (constant (F := Ideal) S4096x128 .f32 0x00000000#32) (ix2 r j))
      + matmul dot_S4096x32_S32x128_S4096x128_1_0_0_1_n_n none _ _ (constant (F := Ideal) S4096x128 .f32 0x00000000#32) (ix2 r j))
      + broadcastTo S4096x128 (shapeCast S1x128 x6 shapeCasts_S1x128_S1x128) broadcasts_S1x128_S4096x128 (ix2 r j)) (Ideal.ofBits .f32 0x00000000#32) = _
  rw [mmA_apply, mmA_apply, mmB_apply, bias_apply, Ideal.ofBits_zero_f32]
  simp only [shapeCast_self]
  rfl

theorem pay_apply (x0 x1 : Vec Ideal S4096x128 .f32) (x2 : Vec Ideal S4096x32 .f32) (x3 x4 : Vec Ideal S128x128 .f32)
    (x5 : Vec Ideal S32x128 .f32) (x6 : Vec Ideal S1x128 .f32) (x7 : Vec Ideal S128x128 .f32) (x8 : Vec Ideal S1x128 .f32) (r : Fin 4096) (q : Fin 128) :
    k0_pay1 (F := Ideal) (k0_pay2 x0 x1 x2 x3 x4 x5 x6 x7) (k0_pay3 x8) (ix2 r q)
      = Cert.Spec.msgRowK (fun k => x0 (ix2 r k)) (fun k => x1 (ix2 r k)) (fun k => x2 (ix2 r k))
          (fun k' k => x3 (ix2 k' k)) (fun k' k => x4 (ix2 k' k)) (fun k' k => x5 (ix2 k' k)) (fun k => x6 (ix2 (0 : Fin 1) k))
          (fun k' k => x7 (ix2 k' k)) (fun k => x8 (ix2 (0 : Fin 1) k)) q := by
  unfold k0_pay1 k0_pay3
  show k0_pay2 (F := Ideal) x0 x1 x2 x3 x4 x5 x6 x7 (ix2 r q) + broadcastTo S4096x128 (shapeCast S1x128 x8 shapeCasts_S1x128_S1x128) broadcasts_S1x128_S4096x128 (ix2 r q) = _
  rw [hidden_apply, bias_apply]
  rfl

variable (V : (c : Dev nD) → (b : Ref sig .tc) → Buf (Elt Ideal) ((c : Thread nD τ).loc b))

theorem hz : (![0, 0] : Fin 2 → Nat) = fun _ => 0 := funext fun a => by
  match a with
  | ⟨0, _⟩ => rfl
  | ⟨1, _⟩ => rfl

/-! ## The index maps, decided once over the 147 points -/

theorem idxW0 : ∀ t : Fin cfg0.N, win0_0.index t (0 : Fin 2) = t.val ∧ win0_0.index t (1 : Fin 2) = 0 :=
  (by decide +kernel : ∀ t : Fin grid0.N, _)
theorem idxW1 : ∀ t : Fin cfg0.N, win0_1.index t (0 : Fin 2) = t.val ∧ win0_1.index t (1 : Fin 2) = 0 :=
  (by decide +kernel : ∀ t : Fin grid0.N, _)
theorem idxW2 : ∀ t : Fin cfg0.N, win0_2.index t (0 : Fin 2) = t.val ∧ win0_2.index t (1 : Fin 2) = 0 :=
  (by decide +kernel : ∀ t : Fin grid0.N, _)
theorem idxW3 : ∀ t : Fin cfg0.N, win0_3.index t (0 : Fin 2) = 0 ∧ win0_3.index t (1 : Fin 2) = 0 :=
  (by decide +kernel : ∀ t : Fin grid0.N, _)
theorem idxW4 : ∀ t : Fin cfg0.N, win0_4.index t (0 : Fin 2) = 0 ∧ win0_4.index t (1 : Fin 2) = 0 :=
  (by decide +kernel : ∀ t : Fin grid0.N, _)
theorem idxW5 : ∀ t : Fin cfg0.N, win0_5.index t (0 : Fin 2) = 0 ∧ win0_5.index t (1 : Fin 2) = 0 :=
  (by decide +kernel : ∀ t : Fin grid0.N, _)
theorem idxW6 : ∀ t : Fin cfg0.N, win0_6.index t (0 : Fin 2) = 0 ∧ win0_6.index t (1 : Fin 2) = 0 :=
  (by decide +kernel : ∀ t : Fin grid0.N, _)
theorem idxW7 : ∀ t : Fin cfg0.N, win0_7.index t (0 : Fin 2) = 0 ∧ win0_7.index t (1 : Fin 2) = 0 :=
  (by decide +kernel : ∀ t : Fin grid0.N, _)
theorem idxW8 : ∀ t : Fin cfg0.N, win0_8.index t (0 : Fin 2) = 0 ∧ win0_8.index t (1 : Fin 2) = 0 :=
  (by decide +kernel : ∀ t : Fin grid0.N, _)
theorem idxW9 : ∀ t : Fin cfg0.N, win0_9.index t (0 : Fin 2) = t.val ∧ win0_9.index t (1 : Fin 2) = 0 :=
  (by decide +kernel : ∀ t : Fin grid0.N, _)

/-! ## Each input block read at an entry, as an entry of its array -/

/-- Row r of point t's block of the first row-blocked input is row 4096 t + r of the array. -/
theorem blk0 (c : Dev nD) (t : Fin cfg0.N) (r : Fin 4096) (k : Fin 128) (p : Fin 602112) (hp : p.val = t.val * 4096 + r.val) :
    (iblk0 V c 0 t : Vec Ideal S4096x128 .f32) (ix2 r k) = V c main_v11 (ix2 p k) := by
  obtain ⟨e0, e1⟩ := idxW0 t
  show V c main_v11 (((cfg0.win 0).blk t).view.emb (ix2 r k)) = V c main_v11 (ix2 p k)
  congr 1
  funext a
  apply Fin.ext
  match a with
  | ⟨0, _⟩ => show win0_0.index t (0 : Fin 2) * 4096 + 1 * r.val = p.val; omega
  | ⟨1, _⟩ => show win0_0.index t (1 : Fin 2) * 128 + 1 * k.val = k.val; omega

theorem blk1 (c : Dev nD) (t : Fin cfg0.N) (r : Fin 4096) (k : Fin 128) (p : Fin 602112) (hp : p.val = t.val * 4096 + r.val) :
    (iblk0 V c 1 t : Vec Ideal S4096x128 .f32) (ix2 r k) = V c main_v12 (ix2 p k) := by
  obtain ⟨e0, e1⟩ := idxW1 t
  show V c main_v12 (((cfg0.win 1).blk t).view.emb (ix2 r k)) = V c main_v12 (ix2 p k)
  congr 1
  funext a
  apply Fin.ext
  match a with
  | ⟨0, _⟩ => show win0_1.index t (0 : Fin 2) * 4096 + 1 * r.val = p.val; omega
  | ⟨1, _⟩ => show win0_1.index t (1 : Fin 2) * 128 + 1 * k.val = k.val; omega

theorem blk2 (c : Dev nD) (t : Fin cfg0.N) (r : Fin 4096) (k : Fin 32) (p : Fin 602112) (hp : p.val = t.val * 4096 + r.val) :
    (iblk0 V c 2 t : Vec Ideal S4096x32 .f32) (ix2 r k) = V c main_v13 (ix2 p k) := by
  obtain ⟨e0, e1⟩ := idxW2 t
  show V c main_v13 (((cfg0.win 2).blk t).view.emb (ix2 r k)) = V c main_v13 (ix2 p k)
  congr 1
  funext a
  apply Fin.ext
  match a with
  | ⟨0, _⟩ => show win0_2.index t (0 : Fin 2) * 4096 + 1 * r.val = p.val; omega
  | ⟨1, _⟩ => show win0_2.index t (1 : Fin 2) * 32 + 1 * k.val = k.val; omega

/-- A whole-array window's block is its array. -/
theorem blk3 (c : Dev nD) (t : Fin cfg0.N) (k' : Fin 128) (k : Fin 128) :
    (iblk0 V c 3 t : Vec Ideal S128x128 .f32) (ix2 k' k) = V c main_v6 (ix2 k' k) := by
  obtain ⟨e0, e1⟩ := idxW3 t
  show V c main_v6 (((cfg0.win 3).blk t).view.emb (ix2 k' k)) = V c main_v6 (ix2 k' k)
  congr 1
  funext a
  apply Fin.ext
  match a with
  | ⟨0, _⟩ => show win0_3.index t (0 : Fin 2) * 128 + 1 * k'.val = k'.val; omega
  | ⟨1, _⟩ => show win0_3.index t (1 : Fin 2) * 128 + 1 * k.val = k.val; omega

theorem blk4 (c : Dev nD) (t : Fin cfg0.N) (k' : Fin 128) (k : Fin 128) :
    (iblk0 V c 4 t : Vec Ideal S128x128 .f32) (ix2 k' k) = V c main_v7 (ix2 k' k) := by
  obtain ⟨e0, e1⟩ := idxW4 t
  show V c main_v7 (((cfg0.win 4).blk t).view.emb (ix2 k' k)) = V c main_v7 (ix2 k' k)
  congr 1
  funext a
  apply Fin.ext
  match a with
  | ⟨0, _⟩ => show win0_4.index t (0 : Fin 2) * 128 + 1 * k'.val = k'.val; omega
  | ⟨1, _⟩ => show win0_4.index t (1 : Fin 2) * 128 + 1 * k.val = k.val; omega

theorem blk5 (c : Dev nD) (t : Fin cfg0.N) (k' : Fin 32) (k : Fin 128) :
    (iblk0 V c 5 t : Vec Ideal S32x128 .f32) (ix2 k' k) = V c main_v8 (ix2 k' k) := by
  obtain ⟨e0, e1⟩ := idxW5 t
  show V c main_v8 (((cfg0.win 5).blk t).view.emb (ix2 k' k)) = V c main_v8 (ix2 k' k)
  congr 1
  funext a
  apply Fin.ext
  match a with
  | ⟨0, _⟩ => show win0_5.index t (0 : Fin 2) * 32 + 1 * k'.val = k'.val; omega
  | ⟨1, _⟩ => show win0_5.index t (1 : Fin 2) * 128 + 1 * k.val = k.val; omega

theorem blk6 (c : Dev nD) (t : Fin cfg0.N) (k' : Fin 1) (k : Fin 128) :
    (iblk0 V c 6 t : Vec Ideal S1x128 .f32) (ix2 k' k) = V c main_v9 (ix2 k' k) := by
  obtain ⟨e0, e1⟩ := idxW6 t
  show V c main_v9 (((cfg0.win 6).blk t).view.emb (ix2 k' k)) = V c main_v9 (ix2 k' k)
  congr 1
  funext a
  apply Fin.ext
  match a with
  | ⟨0, _⟩ => show win0_6.index t (0 : Fin 2) * 1 + 1 * k'.val = k'.val; omega
  | ⟨1, _⟩ => show win0_6.index t (1 : Fin 2) * 128 + 1 * k.val = k.val; omega

theorem blk7 (c : Dev nD) (t : Fin cfg0.N) (k' : Fin 128) (k : Fin 128) :
    (iblk0 V c 7 t : Vec Ideal S128x128 .f32) (ix2 k' k) = V c main_arg4 (ix2 k' k) := by
  obtain ⟨e0, e1⟩ := idxW7 t
  show V c main_arg4 (((cfg0.win 7).blk t).view.emb (ix2 k' k)) = V c main_arg4 (ix2 k' k)
  congr 1
  funext a
  apply Fin.ext
  match a with
  | ⟨0, _⟩ => show win0_7.index t (0 : Fin 2) * 128 + 1 * k'.val = k'.val; omega
  | ⟨1, _⟩ => show win0_7.index t (1 : Fin 2) * 128 + 1 * k.val = k.val; omega

theorem blk8 (c : Dev nD) (t : Fin cfg0.N) (k' : Fin 1) (k : Fin 128) :
    (iblk0 V c 8 t : Vec Ideal S1x128 .f32) (ix2 k' k) = V c main_v10 (ix2 k' k) := by
  obtain ⟨e0, e1⟩ := idxW8 t
  show V c main_v10 (((cfg0.win 8).blk t).view.emb (ix2 k' k)) = V c main_v10 (ix2 k' k)
  congr 1
  funext a
  apply Fin.ext
  match a with
  | ⟨0, _⟩ => show win0_8.index t (0 : Fin 2) * 1 + 1 * k'.val = k'.val; omega
  | ⟨1, _⟩ => show win0_8.index t (1 : Fin 2) * 128 + 1 * k.val = k.val; omega

/-- Where entry (r, q) of point t's output block sits in the output array. -/
theorem emb9 (t : Fin cfg0.N) (r : Fin 4096) (q : Fin 128) (p : Fin 602112) (hp : p.val = t.val * 4096 + r.val) :
    ((cfg0.win 9).blk t).view.emb (ix2 r q) = (ix2 p q : S602112x128.Idx) := by
  obtain ⟨e0, e1⟩ := idxW9 t
  funext a
  apply Fin.ext
  match a with
  | ⟨0, _⟩ => show win0_9.index t (0 : Fin 2) * 4096 + 1 * r.val = p.val; omega
  | ⟨1, _⟩ => show win0_9.index t (1 : Fin 2) * 128 + 1 * q.val = q.val; omega

/-! ## The cover: every row lies in the block of one point -/

theorem mem_blk (t : Fin cfg0.N) (i : S602112x128.Idx) :
    i ∈ ((cfg0.win 9).blk t).view.set ↔ ∀ a : Fin 2, win0_9.index t a * S4096x128.size a ≤ (i a).val ∧ (i a).val < win0_9.index t a * S4096x128.size a + S4096x128.size a := by
  show i ∈ ((View.whole main_v14).slice (win0_9.rect t)).set ↔ _
  rw [View.set_slice_whole, Rect.mem_set_unit]
  exact Iff.rfl

/-- Row p lies in the block of point p / 4096: 147 blocks of 4096 rows are the 602112 rows. -/
theorem cover (i : S602112x128.Idx) : ∃ t : Fin cfg0.N, (cfg0.win 9).flush t = true ∧ i ∈ ((cfg0.win 9).blk t).view.set := by
  have hi0 : (i 0).val < 602112 := idx2_lt0 i
  have hi1 : (i 1).val < 128 := idx2_lt1 i
  have hN : grid0.N = 147 := N_0
  obtain ⟨t, ht⟩ : ∃ t : Fin cfg0.N, t.val = (i 0).val / 4096 :=
    ⟨⟨(i 0).val / 4096, by show (i 0).val / 4096 < grid0.N; rw [hN]; omega⟩, rfl⟩
  obtain ⟨e0, e1⟩ := idxW9 t
  refine ⟨t, flush0_9 t, ?_⟩
  rw [mem_blk]
  intro a
  match a with
  | ⟨0, _⟩ => show win0_9.index t (0 : Fin 2) * 4096 ≤ (i 0).val ∧ (i 0).val < win0_9.index t (0 : Fin 2) * 4096 + 4096; omega
  | ⟨1, _⟩ => show win0_9.index t (1 : Fin 2) * 128 ≤ (i 1).val ∧ (i 1).val < win0_9.index t (1 : Fin 2) * 128 + 128; omega

/-! ## The whole output array as one function of the nine arrays -/

/-- Row p of the message, from row p of the three row-blocked arrays and the six whole arrays as the region finds them. -/
def rowOf (c : Dev nD) (p : Fin 602112) : Fin 128 → EReal :=
  Cert.Spec.msgRowK (fun k => V c main_v11 (ix2 p k)) (fun k => V c main_v12 (ix2 p k)) (fun k => V c main_v13 (ix2 p k))
    (fun k' k => V c main_v6 (ix2 k' k)) (fun k' k => V c main_v7 (ix2 k' k)) (fun k' k => V c main_v8 (ix2 k' k))
    (fun k => V c main_v9 (ix2 0 k)) (fun k' k => V c main_arg4 (ix2 k' k)) (fun k => V c main_v10 (ix2 0 k))

/-- The output array: entry (p, q) is column q of the message of row p. -/
def G (c : Dev nD) : S602112x128.Idx → EReal := fun i => rowOf V c ⟨(i 0).val, idx2_lt0 i⟩ ⟨(i 1).val, idx2_lt1 i⟩

/-- Two [4096,128] blocks that agree at every entry (r, q) are equal. -/
theorem blk_ext (X Y : Vec Ideal S4096x128 .f32) (h : ∀ (r : Fin 4096) (q : Fin 128), X (ix2 r q) = Y (ix2 r q)) : X = Y :=
  funext fun j => by rw [eq_ix2 j]; exact h _ _

/-- The message row depends on its nine arguments only through their values. -/
theorem msgRowK_congr {x0 x0' x1 x1' : Fin 128 → EReal} {x2 x2' : Fin 32 → EReal} {wr wr' wc wc' : Fin 128 → Fin 128 → EReal}
    {we we' : Fin 32 → Fin 128 → EReal} {b1 b1' : Fin 128 → EReal} {W2 W2' : Fin 128 → Fin 128 → EReal} {b2 b2' : Fin 128 → EReal}
    (h0 : ∀ k, x0 k = x0' k) (h1 : ∀ k, x1 k = x1' k) (h2 : ∀ k, x2 k = x2' k) (h3 : ∀ k' k, wr k' k = wr' k' k)
    (h4 : ∀ k' k, wc k' k = wc' k' k) (h5 : ∀ k' k, we k' k = we' k' k) (h6 : ∀ k, b1 k = b1' k)
    (h7 : ∀ k' k, W2 k' k = W2' k' k) (h8 : ∀ k, b2 k = b2' k) (q : Fin 128) :
    Cert.Spec.msgRowK x0 x1 x2 wr wc we b1 W2 b2 q = Cert.Spec.msgRowK x0' x1' x2' wr' wc' we' b1' W2' b2' q := by
  obtain rfl : x0 = x0' := funext h0
  obtain rfl : x1 = x1' := funext h1
  obtain rfl : x2 = x2' := funext h2
  obtain rfl : wr = wr' := funext fun k' => funext (h3 k')
  obtain rfl : wc = wc' := funext fun k' => funext (h4 k')
  obtain rfl : we = we' := funext fun k' => funext (h5 k')
  obtain rfl : b1 = b1' := funext h6
  obtain rfl : W2 = W2' := funext fun k' => funext (h7 k')
  obtain rfl : b2 = b2' := funext h8
  rfl

/-- WHAT POINT t WRITES BACK is block t of G. -/
theorem flushed_eq (c : Dev nD) (t : Fin cfg0.N) :
    (dat0 (F := Ideal) V c).flushed 9 t = ((cfg0.win 9).blk t).view.read (Elt Ideal) (G V c) := by
  show (cfg0.win 9).cut (grid0.coords t) ((dat0 (F := Ideal) V c).after 9 t) = _
  rw [after0_9]
  unfold out0_9
  rw [View.canon_unit_zero hz]
  simp only [View.ld_unit_zero (S := S4096x128) hz, View.ld_unit_zero (S := S4096x32) hz, View.ld_unit_zero (S := S128x128) hz,
    View.ld_unit_zero (S := S32x128) hz, View.ld_unit_zero (S := S1x128) hz]
  refine blk_ext _ _ fun r q => ?_
  have ht : t.val < 147 := lt_of_lt_of_eq (t.isLt : t.val < grid0.N) N_0
  obtain ⟨p, hp⟩ : ∃ p : Fin 602112, p.val = t.val * 4096 + r.val := ⟨⟨t.val * 4096 + r.val, by have := r.isLt; omega⟩, rfl⟩
  refine (pay_apply (iblk0 V c 0 t) (iblk0 V c 1 t) (iblk0 V c 2 t) (iblk0 V c 3 t) (iblk0 V c 4 t) (iblk0 V c 5 t) (iblk0 V c 6 t)
    (iblk0 V c 7 t) (iblk0 V c 8 t) r q).trans ?_
  show _ = G V c (((cfg0.win 9).blk t).view.emb (ix2 r q))
  rw [emb9 t r q p hp]
  show _ = rowOf V c p q
  exact msgRowK_congr (fun k => blk0 V c t r k p hp) (fun k => blk1 V c t r k p hp) (fun k => blk2 V c t r k p hp)
    (fun k' k => blk3 V c t k' k) (fun k' k => blk4 V c t k' k) (fun k' k => blk5 V c t k' k) (fun k => blk6 V c t 0 k)
    (fun k' k => blk7 V c t k' k) (fun k => blk8 V c t 0 k) q

/-- THE ARRAY after all 147 points is G. -/
theorem arr_eq (c : Dev nD) : (dat0 (F := Ideal) V c).arrAt 9 cfg0.N = G V c :=
  (dat0 (F := Ideal) V c).arrAt_eq_of_cover 9 (G V c) (fun t _ => flushed_eq V c t) cover

theorem arr9 (c : Dev nD) (p : Fin 602112) (q : Fin 128) :
    (dat0 (F := Ideal) V c).arrAt 9 cfg0.N (ix2 p q) =
      Cert.Spec.msgRowK (fun k => V c main_v11 (ix2 p k)) (fun k => V c main_v12 (ix2 p k)) (fun k => V c main_v13 (ix2 p k))
        (fun k' k => V c main_v6 (ix2 k' k)) (fun k' k => V c main_v7 (ix2 k' k)) (fun k' k => V c main_v8 (ix2 k' k))
        (fun k => V c main_v9 (ix2 0 k)) (fun k' k => V c main_arg4 (ix2 k' k)) (fun k => V c main_v10 (ix2 0 k)) q := by
  rw [arr_eq V c]
  rfl

end Cert.KernelIdeal.Region0

end
-- ==== Proof.KernelFold0.lean ====
/-
  The tiled program up to its first region, read back to the launch memory.

  Each array the first region finds is a host term of the program's arguments: the two filled gathers of node rows and the
  edge features, each padded with zero rows to 602112 rows; the three row bands of the first weight matrix; the two
  bias vectors as one-row matrices; the second weight matrix itself. An entry of a padded array in one of the first
  600000 rows is the entry of the array that was padded; an entry of a band is the entry of the matrix in the band's row;
  the one row of a reshaped vector is the vector. So row `e < 600000` of what the first region writes — the message of edge
  `e` — is the two-layer perceptron of the rows `e` of the two gathers and of the edge features.
-/
import proofs.«412851_j57251914056302_1_alg».proof.Proof.Gen.KernelIdeal.Frame
import proofs.«412851_j57251914056302_1_alg».proof.Proof.KernelTerms
import proofs.«412851_j57251914056302_1_alg».proof.Proof.Region0
import proofs.«412851_j57251914056302_1_alg».proof.Proof.Spec
import Idealize.ShloMosaic.Lib.StableHlo.Run
import Idealize.ShloMosaic.Lib.KernelVsHost
import Idealize.ShloMosaic.Lib.Pipeline.Value
import Idealize.ShloMosaic.Lib.ValueIdx
import Idealize.ShloMosaic.PureOps.Ideal

set_option maxRecDepth 16384

noncomputable section

namespace Cert.KernelIdeal.Fold

open Cert.KernelIdeal Cert.KernelIdeal.Gen Cert.KernelIdeal.Terms
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The arguments as launched -/

abbrev x0 (c : Dev nD) : Vec Ideal S100000x128 .f32 := m ((c : Thread nD τ).loc main_arg0)
abbrev x1 (c : Dev nD) : Vec Ideal S600000x32 .f32 := m ((c : Thread nD τ).loc main_arg1)
abbrev x2 (c : Dev nD) : Vec Ideal S288x128 .f32 := m ((c : Thread nD τ).loc main_arg2)
abbrev x3 (c : Dev nD) : Vec Ideal S128 .f32 := m ((c : Thread nD τ).loc main_arg3)
abbrev x4 (c : Dev nD) : Vec Ideal S128x128 .f32 := m ((c : Thread nD τ).loc main_arg4)
abbrev x5 (c : Dev nD) : Vec Ideal S128 .f32 := m ((c : Thread nD τ).loc main_arg5)
abbrev x6 (c : Dev nD) : Vec Ideal S128x1 .f32 := m ((c : Thread nD τ).loc main_arg6)
abbrev x7 (c : Dev nD) : Vec Ideal S1 .f32 := m ((c : Thread nD τ).loc main_arg7)
abbrev x8 (c : Dev nD) : Vec Ideal S256x128 .f32 := m ((c : Thread nD τ).loc main_arg8)
abbrev x9 (c : Dev nD) : Vec Ideal S128 .f32 := m ((c : Thread nD τ).loc main_arg9)
abbrev x10 (c : Dev nD) : Vec Ideal S128x128 .f32 := m ((c : Thread nD τ).loc main_arg10)
abbrev x11 (c : Dev nD) : Vec Ideal S128 .f32 := m ((c : Thread nD τ).loc main_arg11)
abbrev x12 (c : Dev nD) : IVec S2x600000 32 := m ((c : Thread nD τ).loc main_arg12)

/-! ## What the first region finds -/

/-- Reads a buffer at the first region's entry back through the nine host stretches before it. -/
local macro "read_v9" : tactic => `(tactic| (
  dsimp only [V9, W9, W8, W7, W6, W5, W4, W3, W2, W1]
  simp only [hostOps0_8, hostOps0_7, hostOps0_6, hostOps0_5, hostOps0_4, hostOps0_3, hostOps0_2, hostOps0_1, hostOps0]
  after_results_simp))

theorem v9_v11 (c : Dev nD) : (V9 m ρ c main_v11 : Vec Ideal S602112x128 .f32) = padE128 (takeK (x0 m c) (rowOf (x12 m c))) := by
  read_v9
  simp only [TRef.toBuf, TRef.ofBuf, cast_eq]
  unfold padE128 takeK inBounds wrapIdx rowOf
  rfl

theorem v9_v12 (c : Dev nD) : (V9 m ρ c main_v12 : Vec Ideal S602112x128 .f32) = padE128 (takeK (x0 m c) (colOf (x12 m c))) := by
  read_v9
  simp only [TRef.toBuf, TRef.ofBuf, cast_eq]
  unfold padE128 takeK inBounds wrapIdx colOf
  rfl

theorem v9_v13 (c : Dev nD) : (V9 m ρ c main_v13 : Vec Ideal S602112x32 .f32) = padE32 (x1 m c) := by
  read_v9
  try rfl

theorem v9_v6 (c : Dev nD) : (V9 m ρ c main_v6 : Vec Ideal S128x128 .f32) = band1r (x2 m c) := by
  read_v9
  try rfl

theorem v9_v7 (c : Dev nD) : (V9 m ρ c main_v7 : Vec Ideal S128x128 .f32) = band1c (x2 m c) := by
  read_v9
  try rfl

theorem v9_v8 (c : Dev nD) : (V9 m ρ c main_v8 : Vec Ideal S32x128 .f32) = band1e (x2 m c) := by
  read_v9
  try rfl

theorem v9_v9 (c : Dev nD) : (V9 m ρ c main_v9 : Vec Ideal S1x128 .f32) = rowVec (x3 m c) := by
  read_v9
  try rfl

theorem v9_arg4 (c : Dev nD) : (V9 m ρ c main_arg4 : Vec Ideal S128x128 .f32) = x4 m c := by
  read_v9
  try rfl

theorem v9_v10 (c : Dev nD) : (V9 m ρ c main_v10 : Vec Ideal S1x128 .f32) = rowVec (x5 m c) := by
  read_v9
  try rfl

/-! ## Entries of the padded arrays, the bands and the bias rows -/

theorem padE128_apply (x : Vec Ideal S600000x128 .f32) (e : Fin 600000) (k : Fin 128) :
    padE128 x (ix2 (⟨e.val, by omega⟩ : Fin 602112) k) = x (ix2 e k) := by
  unfold padE128
  exact pad_apply_of_inside _ _ _ x _ _ _ _ (ix2 e k) (fun a => match a with
    | ⟨0, _⟩ => by show e.val = 0 + e.val * (0 + 1); omega
    | ⟨1, _⟩ => by show k.val = 0 + k.val * (0 + 1); omega)

theorem padE32_apply (x : Vec Ideal S600000x32 .f32) (e : Fin 600000) (k : Fin 32) :
    padE32 x (ix2 (⟨e.val, by omega⟩ : Fin 602112) k) = x (ix2 e k) := by
  unfold padE32
  exact pad_apply_of_inside _ _ _ x _ _ _ _ (ix2 e k) (fun a => match a with
    | ⟨0, _⟩ => by show e.val = 0 + e.val * (0 + 1); omega
    | ⟨1, _⟩ => by show k.val = 0 + k.val * (0 + 1); omega)

theorem padN_apply (x : Vec Ideal S100000x128 .f32) (n : Fin 100000) (k : Fin 128) :
    padN x (ix2 (⟨n.val, by omega⟩ : Fin 102400) k) = x (ix2 n k) := by
  unfold padN
  exact pad_apply_of_inside _ _ _ x _ _ _ _ (ix2 n k) (fun a => match a with
    | ⟨0, _⟩ => by show n.val = 0 + n.val * (0 + 1); omega
    | ⟨1, _⟩ => by show k.val = 0 + k.val * (0 + 1); omega)

theorem sliceE_apply (y : Vec Ideal S602112x128 .f32) (e : Fin 600000) (j : Fin 128) :
    sliceE y (ix2 e j) = y (ix2 (⟨e.val, by omega⟩ : Fin 602112) j) := by
  unfold sliceE
  exact extractStridedSlice_apply _ y _ (ix2 e j) (ix2 (⟨e.val, by omega⟩ : Fin 602112) j) (fun a => match a with
    | ⟨0, _⟩ => by show e.val = 0 + e.val; omega
    | ⟨1, _⟩ => by show j.val = 0 + j.val; omega)

theorem sliceN_apply (y : Vec Ideal S102400x128 .f32) (n : Fin 100000) (j : Fin 128) :
    sliceN y (ix2 n j) = y (ix2 (⟨n.val, by omega⟩ : Fin 102400) j) := by
  unfold sliceN
  exact extractStridedSlice_apply _ y _ (ix2 n j) (ix2 (⟨n.val, by omega⟩ : Fin 102400) j) (fun a => match a with
    | ⟨0, _⟩ => by show n.val = 0 + n.val; omega
    | ⟨1, _⟩ => by show j.val = 0 + j.val; omega)

theorem band1r_apply (w : Vec Ideal S288x128 .f32) (k' k : Fin 128) :
    band1r w (ix2 k' k) = w (ix2 (⟨k'.val, by omega⟩ : Fin 288) k) := by
  unfold band1r
  exact extractStridedSlice_apply _ w _ (ix2 k' k) (ix2 (⟨k'.val, by omega⟩ : Fin 288) k) (fun a => match a with
    | ⟨0, _⟩ => by show k'.val = 0 + k'.val; omega
    | ⟨1, _⟩ => by show k.val = 0 + k.val; omega)

theorem band1c_apply (w : Vec Ideal S288x128 .f32) (k' k : Fin 128) :
    band1c w (ix2 k' k) = w (ix2 (⟨128 + k'.val, by omega⟩ : Fin 288) k) := by
  unfold band1c
  exact extractStridedSlice_apply _ w _ (ix2 k' k) (ix2 (⟨128 + k'.val, by omega⟩ : Fin 288) k) (fun a => match a with
    | ⟨0, _⟩ => by show 128 + k'.val = 128 + k'.val; rfl
    | ⟨1, _⟩ => by show k.val = 0 + k.val; omega)

theorem band1e_apply (w : Vec Ideal S288x128 .f32) (k' : Fin 32) (k : Fin 128) :
    band1e w (ix2 k' k) = w (ix2 (⟨256 + k'.val, by omega⟩ : Fin 288) k) := by
  unfold band1e
  exact extractStridedSlice_apply _ w _ (ix2 k' k) (ix2 (⟨256 + k'.val, by omega⟩ : Fin 288) k) (fun a => match a with
    | ⟨0, _⟩ => by show 256 + k'.val = 256 + k'.val; rfl
    | ⟨1, _⟩ => by show k.val = 0 + k.val; omega)

theorem band2n_apply (w : Vec Ideal S256x128 .f32) (k' k : Fin 128) :
    band2n w (ix2 k' k) = w (ix2 (⟨k'.val, by omega⟩ : Fin 256) k) := by
  unfold band2n
  exact extractStridedSlice_apply _ w _ (ix2 k' k) (ix2 (⟨k'.val, by omega⟩ : Fin 256) k) (fun a => match a with
    | ⟨0, _⟩ => by show k'.val = 0 + k'.val; omega
    | ⟨1, _⟩ => by show k.val = 0 + k.val; omega)

theorem band2a_apply (w : Vec Ideal S256x128 .f32) (k' k : Fin 128) :
    band2a w (ix2 k' k) = w (ix2 (⟨128 + k'.val, by omega⟩ : Fin 256) k) := by
  unfold band2a
  exact extractStridedSlice_apply _ w _ (ix2 k' k) (ix2 (⟨128 + k'.val, by omega⟩ : Fin 256) k) (fun a => match a with
    | ⟨0, _⟩ => by show 128 + k'.val = 128 + k'.val; rfl
    | ⟨1, _⟩ => by show k.val = 0 + k.val; omega)

theorem rowVec_apply (b : Vec Ideal S128 .f32) (k : Fin 128) : rowVec b (ix2 (0 : Fin 1) k) = b (ix1 k) := by
  unfold rowVec
  refine shapeCast_apply b _ (ix2 (0 : Fin 1) k) (ix1 k) ?_
  rw [Shape.rowMajor_val_one, Shape.rowMajor_val_two]
  show k.val = (0 : Fin 1).val * 128 + k.val
  simp

/-! ## The messages -/

/-- The message array: the first 600000 rows of what the first region leaves in its output array. -/
def msgsK (c : Dev nD) : Vec Ideal S600000x128 .f32 := sliceE (W10 m ρ c (Proc.devRef .tc main_v14))

/-- The message of edge `e` is the perceptron of rows `e` of the two filled gathers and of the edge features, with the
    first weight matrix cut into its three bands. -/
theorem msgsK_apply (c : Dev nD) (e : Fin 600000) (j : Fin 128) :
    msgsK m ρ c (ix2 e j)
      = Cert.Spec.msgRowK (fun k => takeK (x0 m c) (rowOf (x12 m c)) (ix2 e k)) (fun k => takeK (x0 m c) (colOf (x12 m c)) (ix2 e k))
          (fun k => x1 m c (ix2 e k))
          (fun k' k => x2 m c (ix2 (⟨k'.val, by omega⟩ : Fin 288) k)) (fun k' k => x2 m c (ix2 (⟨128 + k'.val, by omega⟩ : Fin 288) k))
          (fun k' k => x2 m c (ix2 (⟨256 + k'.val, by omega⟩ : Fin 288) k))
          (fun k => x3 m c (ix1 k)) (fun k' k => x4 m c (ix2 k' k)) (fun k => x5 m c (ix1 k)) j := by
  unfold msgsK
  rw [sliceE_apply]
  have hA : (W10 m ρ c (Proc.devRef .tc main_v14) : Vec Ideal S602112x128 .f32) = (dat0 (F := Ideal) (V9 m ρ) c).arrAt 9 cfg0.N :=
    W10_arr m ρ c 9
  rw [hA, Cert.KernelIdeal.Region0.arr9]
  have e0 : (fun k : Fin 128 => V9 m ρ c main_v11 (ix2 (⟨e.val, by omega⟩ : Fin 602112) k)) = fun k => takeK (x0 m c) (rowOf (x12 m c)) (ix2 e k) :=
    funext fun k => by rw [v9_v11]; exact padE128_apply _ e k
  have e1 : (fun k : Fin 128 => V9 m ρ c main_v12 (ix2 (⟨e.val, by omega⟩ : Fin 602112) k)) = fun k => takeK (x0 m c) (colOf (x12 m c)) (ix2 e k) :=
    funext fun k => by rw [v9_v12]; exact padE128_apply _ e k
  have e2 : (fun k : Fin 32 => V9 m ρ c main_v13 (ix2 (⟨e.val, by omega⟩ : Fin 602112) k)) = fun k => x1 m c (ix2 e k) :=
    funext fun k => by rw [v9_v13]; exact padE32_apply _ e k
  have e3 : (fun (k' k : Fin 128) => V9 m ρ c main_v6 (ix2 k' k)) = fun k' k => x2 m c (ix2 (⟨k'.val, by omega⟩ : Fin 288) k) :=
    funext fun k' => funext fun k => by rw [v9_v6]; exact band1r_apply _ k' k
  have e4 : (fun (k' k : Fin 128) => V9 m ρ c main_v7 (ix2 k' k)) = fun k' k => x2 m c (ix2 (⟨128 + k'.val, by omega⟩ : Fin 288) k) :=
    funext fun k' => funext fun k => by rw [v9_v7]; exact band1c_apply _ k' k
  have e5 : (fun (k' : Fin 32) (k : Fin 128) => V9 m ρ c main_v8 (ix2 k' k)) = fun k' k => x2 m c (ix2 (⟨256 + k'.val, by omega⟩ : Fin 288) k) :=
    funext fun k' => funext fun k => by rw [v9_v8]; exact band1e_apply _ k' k
  have e6 : (fun k : Fin 128 => V9 m ρ c main_v9 (ix2 0 k)) = fun k => x3 m c (ix1 k) :=
    funext fun k => by rw [v9_v9]; exact rowVec_apply _ k
  have e7 : (fun (k' k : Fin 128) => V9 m ρ c main_arg4 (ix2 k' k)) = fun k' k => x4 m c (ix2 k' k) :=
    funext fun k' => funext fun k => by rw [v9_arg4]
  have e8 : (fun k : Fin 128 => V9 m ρ c main_v10 (ix2 0 k)) = fun k => x5 m c (ix1 k) :=
    funext fun k => by rw [v9_v10]; exact rowVec_apply _ k
  rw [e0, e1, e2, e3, e4, e5, e6, e7, e8]

end Cert.KernelIdeal.Fold

end
-- ==== Proof.Region1.lean ====
/-
  What the second tiled region leaves in its output array.

  The region runs over 25 points; point t reads rows 4096 t … 4096 t + 4095 of two row-blocked arrays of 128 columns (the
  node features and the received sums) and five whole small arrays (two weight bands, two one-row biases, a second weight
  matrix), and writes the same rows of the output. Its body is, row by row, a two-layer perceptron — two matrix products
  into zero accumulators added up, a bias, the rectifier, a third product, a second bias — plus the node's own row. Entry
  (r, q) of point t's block depends only on row 4096 t + r of the two row-blocked arrays, so every block is the restriction
  of ONE function of the seven arrays; the 25 blocks cover all 102400 rows, so the array ends equal to that function.
-/
import proofs.«412851_j57251914056302_1_alg».proof.Proof.Gen.KernelIdeal.Frame
import proofs.«412851_j57251914056302_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## A product of a block of rows with a square matrix, read at an entry -/

theorem lhs_axis0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_axis1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_axis0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_axis1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- Rows times a matrix into a zero accumulator: entry (r, q) is the sum over k of a(r, k) · b(k, q). -/
theorem rows_mul_apply (a : FVec Ideal S4096x128 .bf16) (b : FVec Ideal S128x128 .bf16) (r : Fin 4096) (q : Fin 128) :
    matmul (F := Ideal) dot_S4096x128_S128x128_S4096x128_1_0_0_1_n_n none a b (constant (F := Ideal) S4096x128 .f32 0x00000000#32) (ix2 r q)
      = ∑ k : Fin 128, a (ix2 r k) * b (ix2 k q) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 r q) ((ValueIdx.contrEquiv1 dot_S4096x128_S128x128_S4096x128_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S4096x128_S128x128_S4096x128_1_0_0_1_n_n.rhsIdx (ix2 r q) ((ValueIdx.contrEquiv1 dot_S4096x128_S128x128_S4096x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- A bias row spread over the rows of a block, read at an entry. -/
theorem bias_apply {α : Type} (x : S1x128.Idx → α) (r : Fin 4096) (q : Fin 128) :
    broadcastTo S4096x128 x broadcasts_S1x128_S4096x128 (ix2 r q) = x (ix2 0 q) := by
  refine broadcastTo_apply x broadcasts_S1x128_S4096x128 (ix2 r q) (ix2 0 q) fun a => ?_
  match a with
  | ⟨0, _⟩ => rfl
  | ⟨1, _⟩ => show q.val = if (128 : Nat) = 1 then 0 else q.val; rw [if_neg (by decide)]

/-- The word of all zero bits is the number zero. -/
theorem zero_word : (FloatOps.ofBits (F := Ideal) .f32 0x00000000#32) = 0 := Ideal.ofBits_zero_f32

/-- The update's payload at an entry of the block: the row function of that row of the two row blocks and of the five
    whole blocks. -/
theorem pay_apply (x0 x1 : Vec Ideal S4096x128 .f32) (x2 x3 : Vec Ideal S128x128 .f32) (x4 : Vec Ideal S1x128 .f32)
    (x5 : Vec Ideal S128x128 .f32) (x6 : Vec Ideal S1x128 .f32) (r : Fin 4096) (q : Fin 128) :
    k1_pay1 (F := Ideal) x0 x1 x2 x3 x4 x5 x6 (ix2 r q)
      = Cert.Spec.updRowK (fun k => x0 (ix2 r k)) (fun k => x1 (ix2 r k)) (fun k' k => x2 (ix2 k' k)) (fun k' k => x3 (ix2 k' k))
          (fun k => x4 (ix2 0 k)) (fun k' k => x5 (ix2 k' k)) (fun k => x6 (ix2 0 k)) q := by
  unfold k1_pay1 Cert.Spec.updRowK Cert.Spec.dense Cert.Spec.relu Cert.Spec.hid2
  simp only [shapeCast_self, addf_apply, maximumf_apply, truncf_apply, broadcast_apply, rows_mul_apply, bias_apply, Ideal.ofBits_zero_f32, zero_word]

variable (V : (c : Dev nD) → (b : Ref sig .tc) → Buf (Elt Ideal) ((c : Thread nD τ).loc b))

/-! ## The output array as one function of the seven arrays the region reads -/

/-- Entry (p, q) of the result: the row function of row p of the two row-blocked arrays and of the five whole arrays. -/
def rowVal (c : Dev nD) (p : Fin 102400) (q : Fin 128) : EReal :=
  Cert.Spec.updRowK (fun k => V c main_v40 (ix2 p k)) (fun k => V c main_v41 (ix2 p k))
    (fun k' k => V c main_v36 (ix2 k' k)) (fun k' k => V c main_v37 (ix2 k' k))
    (fun k => V c main_v38 (ix2 0 k)) (fun k' k => V c main_arg10 (ix2 k' k)) (fun k => V c main_v39 (ix2 0 k)) q

/-- The whole array. -/
def wholeVal (c : Dev nD) : S102400x128.Idx → Elt Ideal .f32 := fun i => rowVal V c (i 0) (i 1)

theorem zero_offsets : (![0, 0] : Fin 2 → Nat) = fun _ => 0 := funext fun a => by fin_cases a <;> rfl

/-- The index maps over the 25 points: the two row-blocked inputs and the output sit at block row t, column block 0; the
    five whole-array inputs at block (0, 0). -/
theorem index_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## Each input block read where it sits in its array -/

theorem blk0_read (c : Dev nD) (t : Fin cfg1.N) (r : Fin 4096) (k : Fin 128) (p : Fin 102400)
    (hp : p.val = t.val * 4096 + r.val) :
    (iblk1 V c 0 t : Vec Ideal S4096x128 .f32) (ix2 r k) = V c main_v40 (ix2 p k) := by
  obtain ⟨e0, e1, -⟩ := index_facts t
  show V c main_v40 (((cfg1.win 0).blk t).view.emb (ix2 r k)) = V c main_v40 (ix2 p k)
  have h : ((cfg1.win 0).blk t).view.emb (ix2 r k) = ix2 p k := by
    funext a; apply Fin.ext
    match a with
    | ⟨0, _⟩ => show win1_0.index t (0 : Fin 2) * 4096 + 1 * r.val = p.val; omega
    | ⟨1, _⟩ => show win1_0.index t (1 : Fin 2) * 128 + 1 * k.val = k.val; omega
  rw [h]

theorem blk1_read (c : Dev nD) (t : Fin cfg1.N) (r : Fin 4096) (k : Fin 128) (p : Fin 102400)
    (hp : p.val = t.val * 4096 + r.val) :
    (iblk1 V c 1 t : Vec Ideal S4096x128 .f32) (ix2 r k) = V c main_v41 (ix2 p k) := by
  obtain ⟨-, -, e0, e1, -⟩ := index_facts t
  show V c main_v41 (((cfg1.win 1).blk t).view.emb (ix2 r k)) = V c main_v41 (ix2 p k)
  have h : ((cfg1.win 1).blk t).view.emb (ix2 r k) = ix2 p k := by
    funext a; apply Fin.ext
    match a with
    | ⟨0, _⟩ => show win1_1.index t (0 : Fin 2) * 4096 + 1 * r.val = p.val; omega
    | ⟨1, _⟩ => show win1_1.index t (1 : Fin 2) * 128 + 1 * k.val = k.val; omega
  rw [h]

theorem blk2_read (c : Dev nD) (t : Fin cfg1.N) (k' k : Fin 128) :
    (iblk1 V c 2 t : Vec Ideal S128x128 .f32) (ix2 k' k) = V c main_v36 (ix2 k' k) := by
  obtain ⟨-, -, -, -, e0, e1, -⟩ := index_facts t
  show V c main_v36 (((cfg1.win 2).blk t).view.emb (ix2 k' k)) = V c main_v36 (ix2 k' k)
  have h : ((cfg1.win 2).blk t).view.emb (ix2 k' k) = ix2 k' k := by
    funext a; apply Fin.ext
    match a with
    | ⟨0, _⟩ => show win1_2.index t (0 : Fin 2) * 128 + 1 * k'.val = k'.val; omega
    | ⟨1, _⟩ => show win1_2.index t (1 : Fin 2) * 128 + 1 * k.val = k.val; omega
  rw [h]

theorem blk3_read (c : Dev nD) (t : Fin cfg1.N) (k' k : Fin 128) :
    (iblk1 V c 3 t : Vec Ideal S128x128 .f32) (ix2 k' k) = V c main_v37 (ix2 k' k) := by
  obtain ⟨-, -, -, -, -, -, e0, e1, -⟩ := index_facts t
  show V c main_v37 (((cfg1.win 3).blk t).view.emb (ix2 k' k)) = V c main_v37 (ix2 k' k)
  have h : ((cfg1.win 3).blk t).view.emb (ix2 k' k) = ix2 k' k := by
    funext a; apply Fin.ext
    match a with
    | ⟨0, _⟩ => show win1_3.index t (0 : Fin 2) * 128 + 1 * k'.val = k'.val; omega
    | ⟨1, _⟩ => show win1_3.index t (1 : Fin 2) * 128 + 1 * k.val = k.val; omega
  rw [h]

theorem blk4_read (c : Dev nD) (t : Fin cfg1.N) (k : Fin 128) :
    (iblk1 V c 4 t : Vec Ideal S1x128 .f32) (ix2 0 k) = V c main_v38 (ix2 0 k) := by
  obtain ⟨-, -, -, -, -, -, -, -, e0, e1, -⟩ := index_facts t
  show V c main_v38 (((cfg1.win 4).blk t).view.emb (ix2 0 k)) = V c main_v38 (ix2 0 k)
  have h : ((cfg1.win 4).blk t).view.emb (ix2 (0 : Fin 1) k) = ix2 (0 : Fin 1) k := by
    funext a; apply Fin.ext
    match a with
    | ⟨0, _⟩ => show win1_4.index t (0 : Fin 2) * 1 + 1 * 0 = 0; omega
    | ⟨1, _⟩ => show win1_4.index t (1 : Fin 2) * 128 + 1 * k.val = k.val; omega
  rw [h]

theorem blk5_read (c : Dev nD) (t : Fin cfg1.N) (k' k : Fin 128) :
    (iblk1 V c 5 t : Vec Ideal S128x128 .f32) (ix2 k' k) = V c main_arg10 (ix2 k' k) := by
  obtain ⟨-, -, -, -, -, -, -, -, -, -, e0, e1, -⟩ := index_facts t
  show V c main_arg10 (((cfg1.win 5).blk t).view.emb (ix2 k' k)) = V c main_arg10 (ix2 k' k)
  have h : ((cfg1.win 5).blk t).view.emb (ix2 k' k) = ix2 k' k := by
    funext a; apply Fin.ext
    match a with
    | ⟨0, _⟩ => show win1_5.index t (0 : Fin 2) * 128 + 1 * k'.val = k'.val; omega
    | ⟨1, _⟩ => show win1_5.index t (1 : Fin 2) * 128 + 1 * k.val = k.val; omega
  rw [h]

theorem blk6_read (c : Dev nD) (t : Fin cfg1.N) (k : Fin 128) :
    (iblk1 V c 6 t : Vec Ideal S1x128 .f32) (ix2 0 k) = V c main_v39 (ix2 0 k) := by
  obtain ⟨-, -, -, -, -, -, -, -, -, -, -, -, e0, e1, -⟩ := index_facts t
  show V c main_v39 (((cfg1.win 6).blk t).view.emb (ix2 0 k)) = V c main_v39 (ix2 0 k)
  have h : ((cfg1.win 6).blk t).view.emb (ix2 (0 : Fin 1) k) = ix2 (0 : Fin 1) k := by
    funext a; apply Fin.ext
    match a with
    | ⟨0, _⟩ => show win1_6.index t (0 : Fin 2) * 1 + 1 * 0 = 0; omega
    | ⟨1, _⟩ => show win1_6.index t (1 : Fin 2) * 128 + 1 * k.val = k.val; omega
  rw [h]

/-! ## What a point writes back, the cover, and the array after the last point -/

/-- Point t writes back block t of the whole-array function. -/
theorem flushed_eq (c : Dev nD) (t : Fin cfg1.N) :
    (dat1 (F := Ideal) V c).flushed 7 t = ((cfg1.win 7).blk t).view.read (Elt Ideal) (wholeVal V c) := by
  show (cfg1.win 7).cut (grid1.coords t) ((dat1 V c).after 7 t) = _
  rw [after1_7]
  unfold out1_7
  rw [View.canon_unit_zero zero_offsets]
  simp only [View.ld_unit_zero (S := S4096x128) zero_offsets, View.ld_unit_zero (S := S128x128) zero_offsets, View.ld_unit_zero (S := S1x128) zero_offsets]
  have hN : cfg1.N = 25 := N_1
  have ht : t.val < 25 := hN ▸ t.isLt
  obtain ⟨-, -, -, -, -, -, -, -, -, -, -, -, -, -, e0, e1⟩ := index_facts t
  funext j
  have hj0 : (j 0).val < 4096 := (j 0).isLt
  have hj1 : (j 1).val < 128 := (j 1).isLt
  have hp : t.val * 4096 + (j 0).val < 102400 := by omega
  have hj : (cfg1.win 7).xinj (grid1.coords t) j = ix2 (⟨(j 0).val, hj0⟩ : Fin 4096) (⟨(j 1).val, hj1⟩ : Fin 128) :=
    funext fun a => by match a with | ⟨0, _⟩ => rfl | ⟨1, _⟩ => rfl
  have he : ((cfg1.win 7).blk t).view.emb j = ix2 (⟨t.val * 4096 + (j 0).val, hp⟩ : Fin 102400) (⟨(j 1).val, hj1⟩ : Fin 128) := by
    funext a; apply Fin.ext
    match a with
    | ⟨0, _⟩ => show win1_7.index t (0 : Fin 2) * 4096 + 1 * (j 0).val = t.val * 4096 + (j 0).val; omega
    | ⟨1, _⟩ => show win1_7.index t (1 : Fin 2) * 128 + 1 * (j 1).val = (j 1).val; omega
  show k1_pay1 (F := Ideal) (iblk1 V c 0 t) (iblk1 V c 1 t) (iblk1 V c 2 t) (iblk1 V c 3 t) (iblk1 V c 4 t) (iblk1 V c 5 t) (iblk1 V c 6 t)
      ((cfg1.win 7).xinj (grid1.coords t) j) = wholeVal V c (((cfg1.win 7).blk t).view.emb j)
  rw [hj, he]
  refine (pay_apply (iblk1 V c 0 t) (iblk1 V c 1 t) (iblk1 V c 2 t) (iblk1 V c 3 t) (iblk1 V c 4 t) (iblk1 V c 5 t) (iblk1 V c 6 t)
    (⟨(j 0).val, hj0⟩ : Fin 4096) (⟨(j 1).val, hj1⟩ : Fin 128)).trans ?_
  show _ = rowVal V c (⟨t.val * 4096 + (j 0).val, hp⟩ : Fin 102400) (⟨(j 1).val, hj1⟩ : Fin 128)
  unfold rowVal
  have b0 : ∀ k : Fin 128, (iblk1 V c 0 t : Vec Ideal S4096x128 .f32) (ix2 (⟨(j 0).val, hj0⟩ : Fin 4096) k)
      = V c main_v40 (ix2 (⟨t.val * 4096 + (j 0).val, hp⟩ : Fin 102400) k) :=
    fun k => blk0_read V c t ⟨(j 0).val, hj0⟩ k ⟨t.val * 4096 + (j 0).val, hp⟩ rfl
  have b1 : ∀ k : Fin 128, (iblk1 V c 1 t : Vec Ideal S4096x128 .f32) (ix2 (⟨(j 0).val, hj0⟩ : Fin 4096) k)
      = V c main_v41 (ix2 (⟨t.val * 4096 + (j 0).val, hp⟩ : Fin 102400) k) :=
    fun k => blk1_read V c t ⟨(j 0).val, hj0⟩ k ⟨t.val * 4096 + (j 0).val, hp⟩ rfl
  simp only [b0, b1, blk2_read V c t, blk3_read V c t, blk4_read V c t, blk5_read V c t, blk6_read V c t]

/-- An entry of the array is in point t's block iff each coordinate is in the block's range on its axis. -/
theorem mem_blk (t : Fin cfg1.N) (i : S102400x128.Idx) :
    i ∈ ((cfg1.win 7).blk t).view.set ↔ ∀ a : Fin 2, win1_7.index t a * S4096x128.size a ≤ (i a).val ∧ (i a).val < win1_7.index t a * S4096x128.size a + S4096x128.size a := by
  show i ∈ ((View.whole main_v42).slice (win1_7.rect t)).set ↔ _
  rw [View.set_slice_whole, Rect.mem_set_unit]
  exact Iff.rfl

/-- Every row lies in the block of the point numbered by the row's quotient by 4096 (25 · 4096 = 102400). -/
theorem cover (i : S102400x128.Idx) :
    ∃ t : Fin cfg1.N, (cfg1.win 7).flush t = true ∧ i ∈ ((cfg1.win 7).blk t).view.set := by
  have hN : cfg1.N = 25 := N_1
  have hi0 : (i 0).val < 102400 := (i 0).isLt
  have hi1 : (i 1).val < 128 := (i 1).isLt
  have htlt : (i 0).val / 4096 < cfg1.N := by omega
  obtain ⟨-, -, -, -, -, -, -, -, -, -, -, -, -, -, e0, e1⟩ := index_facts ⟨(i 0).val / 4096, htlt⟩
  refine ⟨⟨(i 0).val / 4096, htlt⟩, flush1_7 _, ?_⟩
  rw [mem_blk]
  intro a
  match a with
  | ⟨0, _⟩ =>
    show win1_7.index ⟨(i 0).val / 4096, htlt⟩ (0 : Fin 2) * 4096 ≤ (i 0).val ∧ (i 0).val < win1_7.index ⟨(i 0).val / 4096, htlt⟩ (0 : Fin 2) * 4096 + 4096
    rw [e0]; show (i 0).val / 4096 * 4096 ≤ (i 0).val ∧ (i 0).val < (i 0).val / 4096 * 4096 + 4096; omega
  | ⟨1, _⟩ =>
    show win1_7.index ⟨(i 0).val / 4096, htlt⟩ (1 : Fin 2) * 128 ≤ (i 1).val ∧ (i 1).val < win1_7.index ⟨(i 0).val / 4096, htlt⟩ (1 : Fin 2) * 128 + 128
    rw [e1]; omega

/-- After the last point the output array is the whole-array function. -/
theorem arr_eq (c : Dev nD) : (dat1 (F := Ideal) V c).arrAt 7 cfg1.N = wholeVal V c :=
  (dat1 V c).arrAt_eq_of_cover 7 (wholeVal V c) (fun t _ => flushed_eq V c t) cover

theorem arr7 (c : Dev nD) (p : Fin 102400) (q : Fin 128) :
    (dat1 (F := Ideal) V c).arrAt 7 cfg1.N (ix2 p q) =
      Cert.Spec.updRowK (fun k => V c main_v40 (ix2 p k)) (fun k => V c main_v41 (ix2 p k))
        (fun k' k => V c main_v36 (ix2 k' k)) (fun k' k => V c main_v37 (ix2 k' k))
        (fun k => V c main_v38 (ix2 0 k)) (fun k' k => V c main_arg10 (ix2 k' k)) (fun k => V c main_v39 (ix2 0 k)) q := by
  rw [arr_eq]
  rfl

end Cert.KernelIdeal.Region1

end
-- ==== Proof.KernelFold1.lean ====
/-
  The tiled program from its first region's exit to the result, read back to the launch memory.

  Between the regions the host forms the attention logits of the messages, their softmax over all edges, weights the
  messages and adds each into the row of its edge's second end node; it pads the node features and that sum with zero
  rows to 102400 rows, cuts the first update weight matrix into its two bands and reshapes the two bias vectors. Row
  `n < 100000` of what the second region writes — node `n`'s new value — is the two-layer perceptron of row `n` of the node
  features and of the received sum, plus the node's own row; the result is the first 100000 rows.
-/
import proofs.«412851_j57251914056302_1_alg».proof.Proof.Gen.KernelIdeal.Frame
import proofs.«412851_j57251914056302_1_alg».proof.Proof.KernelTerms
import proofs.«412851_j57251914056302_1_alg».proof.Proof.KernelFold0
import proofs.«412851_j57251914056302_1_alg».proof.Proof.Region1
import proofs.«412851_j57251914056302_1_alg».proof.Proof.Spec
import Idealize.ShloMosaic.Lib.StableHlo.Run
import Idealize.ShloMosaic.Lib.KernelVsHost
import Idealize.ShloMosaic.Lib.Pipeline.Value
import Idealize.ShloMosaic.Lib.ValueIdx
import Idealize.ShloMosaic.PureOps.Ideal

set_option maxRecDepth 16384

noncomputable section

namespace Cert.KernelIdeal.Fold

open Cert.KernelIdeal Cert.KernelIdeal.Gen Cert.KernelIdeal.Terms
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## Buffers the first region does not write, at its exit -/

/-- Reads a buffer at the first region's entry back through the nine host stretches before it. -/
local macro "read_w9" : tactic => `(tactic| (
  dsimp only [W9, W8, W7, W6, W5, W4, W3, W2, W1]
  simp only [hostOps0_8, hostOps0_7, hostOps0_6, hostOps0_5, hostOps0_4, hostOps0_3, hostOps0_2, hostOps0_1, hostOps0]
  after_results_simp))

theorem w10_arg0 (c : Dev nD) : (W10 m ρ c (Proc.devRef .tc main_arg0) : Vec Ideal S100000x128 .f32) = x0 m c :=
  (W10_of_ne m ρ c main_arg0 (by decide)).trans (by read_w9; try rfl)
theorem w10_arg6 (c : Dev nD) : (W10 m ρ c (Proc.devRef .tc main_arg6) : Vec Ideal S128x1 .f32) = x6 m c :=
  (W10_of_ne m ρ c main_arg6 (by decide)).trans (by read_w9; try rfl)
theorem w10_arg7 (c : Dev nD) : (W10 m ρ c (Proc.devRef .tc main_arg7) : Vec Ideal S1 .f32) = x7 m c :=
  (W10_of_ne m ρ c main_arg7 (by decide)).trans (by read_w9; try rfl)
theorem w10_arg8 (c : Dev nD) : (W10 m ρ c (Proc.devRef .tc main_arg8) : Vec Ideal S256x128 .f32) = x8 m c :=
  (W10_of_ne m ρ c main_arg8 (by decide)).trans (by read_w9; try rfl)
theorem w10_arg9 (c : Dev nD) : (W10 m ρ c (Proc.devRef .tc main_arg9) : Vec Ideal S128 .f32) = x9 m c :=
  (W10_of_ne m ρ c main_arg9 (by decide)).trans (by read_w9; try rfl)
theorem w10_arg10 (c : Dev nD) : (W10 m ρ c (Proc.devRef .tc main_arg10) : Vec Ideal S128x128 .f32) = x10 m c :=
  (W10_of_ne m ρ c main_arg10 (by decide)).trans (by read_w9; try rfl)
theorem w10_arg11 (c : Dev nD) : (W10 m ρ c (Proc.devRef .tc main_arg11) : Vec Ideal S128 .f32) = x11 m c :=
  (W10_of_ne m ρ c main_arg11 (by decide)).trans (by read_w9; try rfl)
theorem w10_v3 (c : Dev nD) : (W10 m ρ c (Proc.devRef .tc main_v3) : IVec S600000 32) = colOf (x12 m c) :=
  (W10_of_ne m ρ c main_v3 (by decide)).trans (by read_w9; try rfl)

/-! ## What the second region finds -/

/-- What every node receives, as a function of the launch memory. -/
def aggK (c : Dev nD) : Vec Ideal S100000x128 .f32 := midK (msgsK m ρ c) (x6 m c) (x7 m c) (colOf (x12 m c))

/-- Reads a buffer at the second region's entry back through the four host stretches since the first region's exit. -/
local macro "read_v14" : tactic => `(tactic| (
  dsimp only [V14, W14, W13, W12, W11]
  simp only [hostOps1_3, hostOps1_2, hostOps1_1, hostOps1]
  after_results_simp))

theorem v14_v40 (c : Dev nD) : (V14 m ρ c main_v40 : Vec Ideal S102400x128 .f32) = padN (x0 m c) := by
  rw [← w10_arg0 m ρ c]; read_v14; try rfl

theorem v14_v41 (c : Dev nD) : (V14 m ρ c main_v41 : Vec Ideal S102400x128 .f32) = padN (aggK m ρ c) := by
  unfold aggK
  rw [← w10_arg6 m ρ c, ← w10_arg7 m ρ c, ← w10_v3 m ρ c]; read_v14; try rfl

theorem v14_v36 (c : Dev nD) : (V14 m ρ c main_v36 : Vec Ideal S128x128 .f32) = band2n (x8 m c) := by
  rw [← w10_arg8 m ρ c]; read_v14; try rfl

theorem v14_v37 (c : Dev nD) : (V14 m ρ c main_v37 : Vec Ideal S128x128 .f32) = band2a (x8 m c) := by
  rw [← w10_arg8 m ρ c]; read_v14; try rfl

theorem v14_v38 (c : Dev nD) : (V14 m ρ c main_v38 : Vec Ideal S1x128 .f32) = rowVec (x9 m c) := by
  rw [← w10_arg9 m ρ c]; read_v14; try rfl

theorem v14_arg10 (c : Dev nD) : (V14 m ρ c main_arg10 : Vec Ideal S128x128 .f32) = x10 m c := by
  rw [← w10_arg10 m ρ c]; read_v14; try rfl

theorem v14_v39 (c : Dev nD) : (V14 m ρ c main_v39 : Vec Ideal S1x128 .f32) = rowVec (x11 m c) := by
  rw [← w10_arg11 m ρ c]; read_v14; try rfl

/-! ## The result -/

theorem w16_v43 (c : Dev nD) :
    (W16 m ρ c (Proc.devRef .tc main_v43) : Vec Ideal S100000x128 .f32) = sliceN (W15 m ρ c (Proc.devRef .tc main_v42)) := by
  dsimp only [W16]
  simp only [hostOps2]
  after_results_simp
  rfl

/-- Node `n`'s new value is the perceptron of row `n` of the node features and of the received sum, with the first update
    weight matrix cut into its two bands, plus the node's own row. -/
theorem result_apply (c : Dev nD) (n : Fin 100000) (j : Fin 128) :
    (W16 m ρ c (Proc.devRef .tc main_v43) : Vec Ideal S100000x128 .f32) (ix2 n j)
      = Cert.Spec.updRowK (fun k => x0 m c (ix2 n k)) (fun k => aggK m ρ c (ix2 n k))
          (fun k' k => x8 m c (ix2 (⟨k'.val, by omega⟩ : Fin 256) k)) (fun k' k => x8 m c (ix2 (⟨128 + k'.val, by omega⟩ : Fin 256) k))
          (fun k => x9 m c (ix1 k)) (fun k' k => x10 m c (ix2 k' k)) (fun k => x11 m c (ix1 k)) j := by
  rw [w16_v43, sliceN_apply]
  have hA : (W15 m ρ c (Proc.devRef .tc main_v42) : Vec Ideal S102400x128 .f32) = (dat1 (F := Ideal) (V14 m ρ) c).arrAt 7 cfg1.N :=
    W15_arr m ρ c 7
  rw [hA, Cert.KernelIdeal.Region1.arr7]
  have e0 : (fun k : Fin 128 => V14 m ρ c main_v40 (ix2 (⟨n.val, by omega⟩ : Fin 102400) k)) = fun k => x0 m c (ix2 n k) :=
    funext fun k => by rw [v14_v40]; exact padN_apply _ n k
  have e1 : (fun k : Fin 128 => V14 m ρ c main_v41 (ix2 (⟨n.val, by omega⟩ : Fin 102400) k)) = fun k => aggK m ρ c (ix2 n k) :=
    funext fun k => by rw [v14_v41]; exact padN_apply _ n k
  have e2 : (fun (k' k : Fin 128) => V14 m ρ c main_v36 (ix2 k' k)) = fun k' k => x8 m c (ix2 (⟨k'.val, by omega⟩ : Fin 256) k) :=
    funext fun k' => funext fun k => by rw [v14_v36]; exact band2n_apply _ k' k
  have e3 : (fun (k' k : Fin 128) => V14 m ρ c main_v37 (ix2 k' k)) = fun k' k => x8 m c (ix2 (⟨128 + k'.val, by omega⟩ : Fin 256) k) :=
    funext fun k' => funext fun k => by rw [v14_v37]; exact band2a_apply _ k' k
  have e4 : (fun k : Fin 128 => V14 m ρ c main_v38 (ix2 0 k)) = fun k => x9 m c (ix1 k) :=
    funext fun k => by rw [v14_v38]; exact rowVec_apply _ k
  have e5 : (fun (k' k : Fin 128) => V14 m ρ c main_arg10 (ix2 k' k)) = fun k' k => x10 m c (ix2 k' k) :=
    funext fun k' => funext fun k => by rw [v14_arg10]
  have e6 : (fun k : Fin 128 => V14 m ρ c main_v39 (ix2 0 k)) = fun k => x11 m c (ix1 k) :=
    funext fun k => by rw [v14_v39]; exact rowVec_apply _ k
  rw [e0, e1, e2, e3, e4, e5, e6]

end Cert.KernelIdeal.Fold

end
-- ==== Proof.RefValue.lean ====
/-
  The plain program read at an entry.

  Its messages are a dense layer, the rectifier and a second dense layer of the row `[r | c | e]` laid end to end by a
  concatenation: entry k of that row is entry k of the first gather's row for k < 128, entry k − 128 of the second gather's
  row for 128 ≤ k < 256, and entry k − 256 of the edge's features beyond. A matrix product on the host, read at an entry, is
  the sum over the contracted index of the products; a bias vector spread over the rows is the bias at the column; the
  rectifier is the maximum with zero. The result is the same two layers of `[x | a]` (the node's features, then what it
  received), plus the node's own row. The two gathers and the scatter-add are left as they are: both programs share them.
-/
import proofs.«412851_j57251914056302_1_alg».proof.Defs
import proofs.«412851_j57251914056302_1_alg».proof.Proof.RefRun
import proofs.«412851_j57251914056302_1_alg».proof.Proof.RefRead
import proofs.«412851_j57251914056302_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.ValueIdx

variable (x0 : (⟨S100000x128, .f32⟩ : BufTy).Contents (Elt Ideal)) (x1 : (⟨S600000x32, .f32⟩ : BufTy).Contents (Elt Ideal))
  (x2 : (⟨S288x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x1, .f32⟩ : BufTy).Contents (Elt Ideal)) (x7 : (⟨S1, .f32⟩ : BufTy).Contents (Elt Ideal))
  (x8 : (⟨S256x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))
  (x12 : (⟨S2x600000, .i32⟩ : BufTy).Contents (Elt Ideal))

/-! ### Small facts used by both perceptrons -/

/-- At the extended reals the float addition is the addition. -/
theorem addf_eq (a b : EReal) : FloatOps.addf (F := Ideal) (φ := .f32) a b = a + b := rfl

/-- At the extended reals the float maximum is the maximum. -/
theorem maximumf_eq (a b : EReal) : FloatOps.maximumf (F := Ideal) (φ := .f32) a b = max a b := rfl

/-- A sum of products plus a bias entry is a dense layer's entry. -/
theorem dense_of_eq {K : ℕ} (x : Fin K → EReal) (W : Fin K → Fin 128 → EReal) (b : Fin 128 → EReal) (j : Fin 128)
    (s t : EReal) (hs : s = ∑ k, x k * W k j) (ht : t = b j) : s + t = Cert.Spec.dense x W b j := by
  rw [hs, ht]; rfl

/-! ### The message perceptron -/

/-- The first bias, spread over the rows, read at row e and column j. -/
theorem bias1_apply (e : Fin 600000) (j : Fin 128) :
    val_main_v21 (F := Ideal) x3 (ix2 e j) = x3 (ix1 j) := by
  rw [val_main_v21_apply, val_main_v20_apply]
  exact congrArg x3 (funext fun a => Fin.ext (by match a with | ⟨0, _⟩ => rfl))

/-- The second bias, spread over the rows, read at row e and column j. -/
theorem bias2_apply (e : Fin 600000) (j : Fin 128) :
    val_main_v26 (F := Ideal) x5 (ix2 e j) = x5 (ix1 j) := by
  rw [val_main_v26_apply, val_main_v25_apply]
  exact congrArg x5 (funext fun a => Fin.ext (by match a with | ⟨0, _⟩ => rfl))

/-- The rectifier's constant is zero at every entry. -/
theorem zero0_apply (e : Fin 600000) (j : Fin 128) :
    val_main_call0_v0 (F := Ideal) (ix2 e j) = (0 : EReal) := by
  rw [val_main_call0_v0_apply, val_main_call0_cst_apply]
  exact Ideal.ofBits_zero_f32

/-- Three pieces of 128, 128 and 32 columns laid end to end, read at row e and column k: the piece whose span holds k. -/
theorem cat3_read (g0 g1 : (⟨S600000x128, .f32⟩ : BufTy).Contents (Elt Ideal)) (g2 : (⟨S600000x32, .f32⟩ : BufTy).Contents (Elt Ideal))
    (e : Fin 600000) (k : Fin 288) :
    concatenate S600000x288 1 [⟨S600000x128, g0⟩, ⟨S600000x128, g1⟩, ⟨S600000x32, g2⟩] concatenates_S600000x128_S600000x128_S600000x32_S600000x288_d1 (ix2 e k)
      = Cert.Spec.cat3 (fun k => g0 (ix2 e k)) (fun k => g1 (ix2 e k)) (fun k => g2 (ix2 e k)) k := by
  unfold Cert.Spec.cat3
  by_cases h : k.val < 128
  · rw [dif_pos h]
    exact concatenate_apply_piece (t := S600000x288) 1 [⟨S600000x128, g0⟩, ⟨S600000x128, g1⟩, ⟨S600000x32, g2⟩] concatenates_S600000x128_S600000x128_S600000x32_S600000x288_d1 (ix2 e k)
      0 (by show 0 < 3; omega) S600000x128 g0 rfl rfl 0 rfl (ix2 e ⟨k.val, h⟩)
      (fun b => match b with | ⟨0, _⟩ => fun _ => rfl | ⟨1, _⟩ => fun hne => absurd rfl hne)
      (by show 0 + k.val = k.val; omega)
  · rw [dif_neg h]
    by_cases h' : k.val < 256
    · rw [dif_pos h']
      exact concatenate_apply_piece (t := S600000x288) 1 [⟨S600000x128, g0⟩, ⟨S600000x128, g1⟩, ⟨S600000x32, g2⟩] concatenates_S600000x128_S600000x128_S600000x32_S600000x288_d1 (ix2 e k)
        1 (by show 1 < 3; omega) S600000x128 g1 rfl rfl 128 rfl (ix2 e ⟨k.val - 128, by omega⟩)
        (fun b => match b with | ⟨0, _⟩ => fun _ => rfl | ⟨1, _⟩ => fun hne => absurd rfl hne)
        (by show 128 + (k.val - 128) = k.val; omega)
    · rw [dif_neg h']
      exact concatenate_apply_piece (t := S600000x288) 1 [⟨S600000x128, g0⟩, ⟨S600000x128, g1⟩, ⟨S600000x32, g2⟩] concatenates_S600000x128_S600000x128_S600000x32_S600000x288_d1 (ix2 e k)
        2 (by show 2 < 3; omega) S600000x32 g2 rfl rfl 256 rfl (ix2 e ⟨k.val - 256, by have := k.isLt; omega⟩)
        (fun b => match b with | ⟨0, _⟩ => fun _ => rfl | ⟨1, _⟩ => fun hne => absurd rfl hne)
        (by show 256 + (k.val - 256) = k.val; omega)

/-- The row [r | c | e] of edge e read at column k. -/
theorem cat3_apply (e : Fin 600000) (k : Fin 288) :
    val_main_v18 (F := Ideal) x0 x1 x12 (ix2 e k)
      = Cert.Spec.cat3 (fun k => val_main_v10 (F := Ideal) x0 x12 (ix2 e k)) (fun k => val_main_v17 (F := Ideal) x0 x12 (ix2 e k))
          (fun k => x1 (ix2 e k)) k := by
  unfold val_main_v18
  exact cat3_read (val_main_v10 (F := Ideal) x0 x12) (val_main_v17 (F := Ideal) x0 x12) x1 e k

/-- The first layer of the message before the rectifier. -/
theorem hid_apply (e : Fin 600000) (j : Fin 128) :
    val_main_v22 (F := Ideal) x0 x1 x2 x3 x12 (ix2 e j)
      = Cert.Spec.dense (Cert.Spec.cat3 (fun k => val_main_v10 (F := Ideal) x0 x12 (ix2 e k))
          (fun k => val_main_v17 (F := Ideal) x0 x12 (ix2 e k)) (fun k => x1 (ix2 e k)))
          (fun k' k => x2 (ix2 k' k)) (fun k => x3 (ix1 k)) j := by
  rw [val_main_v22_apply, addf_eq]
  refine dense_of_eq _ _ _ j _ _ ?_ (bias1_apply x3 e j)
  rw [val_main_v19_apply]
  refine Finset.sum_congr rfl fun k _ => ?_
  have el : lidx_main_v19 (ix2 e j) k = ix2 e k :=
    funext fun a => Fin.ext (by match a with | ⟨0, _⟩ => rfl | ⟨1, _⟩ => rfl)
  have er : ridx_main_v19 (ix2 e j) k = ix2 k j :=
    funext fun a => Fin.ext (by match a with | ⟨0, _⟩ => rfl | ⟨1, _⟩ => rfl)
  rw [el, er, cat3_apply]

/-- The first layer of the message after the rectifier. -/
theorem act_apply (e : Fin 600000) (j : Fin 128) :
    val_main_v23 (F := Ideal) x0 x1 x2 x3 x12 (ix2 e j)
      = Cert.Spec.relu (Cert.Spec.dense (Cert.Spec.cat3 (fun k => val_main_v10 (F := Ideal) x0 x12 (ix2 e k))
          (fun k => val_main_v17 (F := Ideal) x0 x12 (ix2 e k)) (fun k => x1 (ix2 e k)))
          (fun k' k => x2 (ix2 k' k)) (fun k => x3 (ix1 k))) j := by
  rw [val_main_v23_apply, hid_apply, zero0_apply]
  rfl

theorem msg_apply (e : Fin 600000) (j : Fin 128) :
    val_main_v27 (F := Ideal) x0 x1 x2 x3 x4 x5 x12 (ix2 e j)
      = Cert.Spec.msgRow (fun k => val_main_v10 (F := Ideal) x0 x12 (ix2 e k)) (fun k => val_main_v17 (F := Ideal) x0 x12 (ix2 e k))
          (fun k => x1 (ix2 e k)) (fun k' k => x2 (ix2 k' k)) (fun k => x3 (ix1 k)) (fun k' k => x4 (ix2 k' k)) (fun k => x5 (ix1 k)) j := by
  rw [val_main_v27_apply, addf_eq]
  unfold Cert.Spec.msgRow
  refine dense_of_eq _ _ _ j _ _ ?_ (bias2_apply x5 e j)
  rw [val_main_v24_apply]
  refine Finset.sum_congr rfl fun k _ => ?_
  have el : lidx_main_v24 (ix2 e j) k = ix2 e k :=
    funext fun a => Fin.ext (by match a with | ⟨0, _⟩ => rfl | ⟨1, _⟩ => rfl)
  have er : ridx_main_v24 (ix2 e j) k = ix2 k j :=
    funext fun a => Fin.ext (by match a with | ⟨0, _⟩ => rfl | ⟨1, _⟩ => rfl)
  rw [el, er, act_apply]

/-! ### The update perceptron -/

/-- The first bias of the update, spread over the rows, read at row n and column j. -/
theorem ubias1_apply (n : Fin 100000) (j : Fin 128) :
    val_main_v51 (F := Ideal) x9 (ix2 n j) = x9 (ix1 j) := by
  rw [val_main_v51_apply, val_main_v50_apply]
  exact congrArg x9 (funext fun a => Fin.ext (by match a with | ⟨0, _⟩ => rfl))

/-- The second bias of the update, spread over the rows, read at row n and column j. -/
theorem ubias2_apply (n : Fin 100000) (j : Fin 128) :
    val_main_v56 (F := Ideal) x11 (ix2 n j) = x11 (ix1 j) := by
  rw [val_main_v56_apply, val_main_v55_apply]
  exact congrArg x11 (funext fun a => Fin.ext (by match a with | ⟨0, _⟩ => rfl))

/-- The update rectifier's constant is zero at every entry. -/
theorem zero1_apply (n : Fin 100000) (j : Fin 128) :
    val_main_call1_v0 (F := Ideal) (ix2 n j) = (0 : EReal) := by
  rw [val_main_call1_v0_apply, val_main_call1_cst_apply]
  exact Ideal.ofBits_zero_f32

/-- Two pieces of 128 columns laid end to end, read at row n and column k: the piece whose span holds k. -/
theorem cat2_read (g0 g1 : (⟨S100000x128, .f32⟩ : BufTy).Contents (Elt Ideal)) (n : Fin 100000) (k : Fin 256) :
    concatenate S100000x256 1 [⟨S100000x128, g0⟩, ⟨S100000x128, g1⟩] concatenates_S100000x128_S100000x128_S100000x256_d1 (ix2 n k)
      = Cert.Spec.cat2 (fun k => g0 (ix2 n k)) (fun k => g1 (ix2 n k)) k := by
  unfold Cert.Spec.cat2
  by_cases h : k.val < 128
  · rw [dif_pos h]
    exact concatenate_pair_apply_left _ g0 g1 concatenates_S100000x128_S100000x128_S100000x256_d1 (ix2 n k) rfl
      (ix2 n ⟨k.val, h⟩) (fun b => match b with | ⟨0, _⟩ => rfl | ⟨1, _⟩ => rfl)
  · rw [dif_neg h]
    exact concatenate_pair_apply_right _ g0 g1 concatenates_S100000x128_S100000x128_S100000x256_d1 (ix2 n k) rfl rfl
      (ix2 n ⟨k.val - 128, by have := k.isLt; omega⟩)
      (fun b => match b with | ⟨0, _⟩ => fun _ => rfl | ⟨1, _⟩ => fun hne => absurd rfl hne)
      (by show (k.val - 128) + 128 = k.val; omega)

/-- The row [x | a] of node n read at column k. -/
theorem cat2_apply (n : Fin 100000) (k : Fin 256) :
    val_main_v48 (F := Ideal) x0 x1 x2 x3 x4 x5 x6 x7 x12 (ix2 n k)
      = Cert.Spec.cat2 (fun k => x0 (ix2 n k)) (fun k => val_main_v47 (F := Ideal) x0 x1 x2 x3 x4 x5 x6 x7 x12 (ix2 n k)) k := by
  unfold val_main_v48
  exact cat2_read x0 (val_main_v47 (F := Ideal) x0 x1 x2 x3 x4 x5 x6 x7 x12) n k

/-- The first layer of the update before the rectifier. -/
theorem uhid_apply (n : Fin 100000) (j : Fin 128) :
    val_main_v52 (F := Ideal) x0 x1 x2 x3 x4 x5 x6 x7 x8 x9 x12 (ix2 n j)
      = Cert.Spec.dense (Cert.Spec.cat2 (fun k => x0 (ix2 n k))
          (fun k => val_main_v47 (F := Ideal) x0 x1 x2 x3 x4 x5 x6 x7 x12 (ix2 n k)))
          (fun k' k => x8 (ix2 k' k)) (fun k => x9 (ix1 k)) j := by
  rw [val_main_v52_apply, addf_eq]
  refine dense_of_eq _ _ _ j _ _ ?_ (ubias1_apply x9 n j)
  rw [val_main_v49_apply]
  refine Finset.sum_congr rfl fun k _ => ?_
  have el : lidx_main_v49 (ix2 n j) k = ix2 n k :=
    funext fun a => Fin.ext (by match a with | ⟨0, _⟩ => rfl | ⟨1, _⟩ => rfl)
  have er : ridx_main_v49 (ix2 n j) k = ix2 k j :=
    funext fun a => Fin.ext (by match a with | ⟨0, _⟩ => rfl | ⟨1, _⟩ => rfl)
  rw [el, er, cat2_apply]

/-- The first layer of the update after the rectifier. -/
theorem uact_apply (n : Fin 100000) (j : Fin 128) :
    val_main_v53 (F := Ideal) x0 x1 x2 x3 x4 x5 x6 x7 x8 x9 x12 (ix2 n j)
      = Cert.Spec.relu (Cert.Spec.dense (Cert.Spec.cat2 (fun k => x0 (ix2 n k))
          (fun k => val_main_v47 (F := Ideal) x0 x1 x2 x3 x4 x5 x6 x7 x12 (ix2 n k)))
          (fun k' k => x8 (ix2 k' k)) (fun k => x9 (ix1 k))) j := by
  rw [val_main_v53_apply, uhid_apply, zero1_apply]
  rfl

theorem out_apply (n : Fin 100000) (j : Fin 128) :
    val_main_v58 (F := Ideal) x0 x1 x2 x3 x4 x5 x6 x7 x8 x9 x10 x11 x12 (ix2 n j)
      = Cert.Spec.updRow (fun k => x0 (ix2 n k)) (fun k => val_main_v47 (F := Ideal) x0 x1 x2 x3 x4 x5 x6 x7 x12 (ix2 n k))
          (fun k' k => x8 (ix2 k' k)) (fun k => x9 (ix1 k)) (fun k' k => x10 (ix2 k' k)) (fun k => x11 (ix1 k)) j := by
  rw [val_main_v58_apply, addf_eq, val_main_v57_apply, addf_eq]
  unfold Cert.Spec.updRow
  refine congrArg (fun s : EReal => s + x0 (ix2 n j)) ?_
  refine dense_of_eq _ _ _ j _ _ ?_ (ubias2_apply x11 n j)
  rw [val_main_v54_apply]
  refine Finset.sum_congr rfl fun k _ => ?_
  have el : lidx_main_v54 (ix2 n j) k = ix2 n k :=
    funext fun a => Fin.ext (by match a with | ⟨0, _⟩ => rfl | ⟨1, _⟩ => rfl)
  have er : ridx_main_v54 (ix2 n j) k = ix2 k j :=
    funext fun a => Fin.ext (by match a with | ⟨0, _⟩ => rfl | ⟨1, _⟩ => rfl)
  rw [el, er, uact_apply]

end Cert.ReferenceIdeal.RefValue

end
-- ==== Proof.LibNary3.lean ====
/-
  A host operation over a literal family of THREE operand references (a concatenate of three pieces), read at its result:
  the operation's function applied to the three operands' contents, each at its own reference. Stated with the family
  spelt out, so that a rewriting pass goes on into each operand's own contents; with the family left as a function of the
  position the operands' references are no literals and the pass stops there.
-/
import Idealize.ShloMosaic.Lib.StableHlo.Run

namespace Idealize.ShloMosaic.StableHlo

open Idealize.ShloMosaic Idealize.SL.Sem

section Nary3
variable {τ : Topo} {sig : RefSig} {Val : EltTy → Type} {x a b y : Ref sig .tc}

/-- `nary` over a LITERAL family of three references (a concatenate of three operands): the result with each operand's
    contents at its own reference — `Fin.cons (F ↑x) …` in place of `fun k => F ↑(![x, a, b] k)` —, so that the rewriting of
    the operands' contents goes on under it (under the binder the reference `![x, a, b] k` is no literal). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same for `simp`: the result reference un-indexed. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Nary3

end Idealize.ShloMosaic.StableHlo
-- ==== Proof.RefFold.lean ====
/-
  The plain program's line of 71 host operations, read at its result buffer.

  The run leaves every buffer at the fold of the operations' results over the launch contents. The fold is read in five
  stretches, each from ARBITRARY incoming contents, so that no stretch's term is opened twice: the two index rows and the
  two gathers; the three-piece concatenation (its pieces are the incoming contents of three buffers); the message
  perceptron, the softmax weights and the scatter-add; the two-piece concatenation; the update perceptron and the residual
  sum. What each stretch leaves in the buffers the next one reads is the corresponding stage of the program as a function
  of the arguments, and the arguments themselves pass through every stretch unchanged; chained, the result buffer holds
  the last stage of the launch contents.
-/
import proofs.«412851_j57251914056302_1_alg».proof.Proof.RefRun
import proofs.«412851_j57251914056302_1_alg».proof.Proof.RefRead
import proofs.«412851_j57251914056302_1_alg».proof.Proof.LibNary3
import Idealize.ShloMosaic.Lib.StableHlo.Run

noncomputable section

namespace Cert.ReferenceIdeal.RefFold

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable {F : FTy → Type} [FloatOps F]

/-! The line of operations cut before and after each of its two concatenations: five stretches. -/

/-- Operations 1 to 22: the two index rows and the two gathered row sets. -/
abbrev opsA : List (HloOp τ sig (Elt F)) :=
  [ unary main_arg12 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg12 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_v1 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 100000#32),
    unary main_c_0 main_v6 (broadcastInDim S600000 ![] bcast_S_S600000 : (⟨S_, .i32⟩ : BufTy).Contents (Elt F) → (⟨S600000, .i32⟩ : BufTy).Contents (Elt F)),
    binary main_v1 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg0 main_v9 main_v10 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_c_1 (constantI S_ 32 0#32),
    unary main_c_1 main_v11 (broadcastInDim S600000 ![] bcast_S_S600000 : (⟨S_, .i32⟩ : BufTy).Contents (Elt F) → (⟨S600000, .i32⟩ : BufTy).Contents (Elt F)),
    binary main_v3 main_v11 main_v12 (cmpi .slt : (⟨S600000, .i32⟩ : BufTy).Contents (Elt F) → (⟨S600000, .i32⟩ : BufTy).Contents (Elt F) → (⟨S600000, .i1⟩ : BufTy).Contents (Elt F)),
    nullary main_c_2 (constantI S_ 32 100000#32),
    unary main_c_2 main_v13 (broadcastInDim S600000 ![] bcast_S_S600000 : (⟨S_, .i32⟩ : BufTy).Contents (Elt F) → (⟨S600000, .i32⟩ : BufTy).Contents (Elt F)),
    binary main_v3 main_v13 main_v14 (addi : (⟨S600000, .i32⟩ : BufTy).Contents (Elt F) → (⟨S600000, .i32⟩ : BufTy).Contents (Elt F) → (⟨S600000, .i32⟩ : BufTy).Contents (Elt F)),
    ternary main_v12 main_v14 main_v3 main_v15 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v15 main_v16 (broadcastInDim S600000x1 ![0] bcast_S600000_S600000x1_0 : (⟨S600000, .i32⟩ : BufTy).Contents (Elt F) → (⟨S600000x1, .i32⟩ : BufTy).Contents (Elt F)),
    binary main_arg0 main_v16 main_v17 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) ]

/-- Operation 23: the three-piece concatenation. -/
abbrev opsB : List (HloOp τ sig (Elt F)) :=
  [ nary ![main_v10, main_v17, main_arg1] main_v18 (fun u => concatenate S600000x288 1 [⟨S600000x128, u 0⟩, ⟨S600000x128, u 1⟩, ⟨S600000x32, u 2⟩] concatenates_S600000x128_S600000x128_S600000x32_S600000x288_d1) ]

/-- Operations 24 to 58: the message perceptron, the softmax weights and the scatter. -/
abbrev opsC : List (HloOp τ sig (Elt F)) :=
  [ binary main_v18 main_arg2 main_v19 ((fun l r => Host.dotGeneral dot_S600000x288_S288x128_S600000x128_1_0_0_1_n_n none l r) : (⟨S600000x288, .f32⟩ : BufTy).Contents (Elt F) → (⟨S288x128, .f32⟩ : BufTy).Contents (Elt F) → (⟨S600000x128, .f32⟩ : BufTy).Contents (Elt F)),
    unary main_arg3 main_v20 (broadcastInDim S1x128 ![1] bcast_S128_S1x128_1 : (⟨S128, .f32⟩ : BufTy).Contents (Elt F) → (⟨S1x128, .f32⟩ : BufTy).Contents (Elt F)),
    unary main_v20 main_v21 (broadcastInDim S600000x128 ![0, 1] bcast_S1x128_S600000x128_0_1 : (⟨S1x128, .f32⟩ : BufTy).Contents (Elt F) → (⟨S600000x128, .f32⟩ : BufTy).Contents (Elt F)),
    binary main_v19 main_v21 main_v22 (addf : (⟨S600000x128, .f32⟩ : BufTy).Contents (Elt F) → (⟨S600000x128, .f32⟩ : BufTy).Contents (Elt F) → (⟨S600000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S600000x128, .f32⟩) main_call0_v0) (broadcastInDim S600000x128 ![] bcast_S_S600000x128),
    TRef.binary (TRef.of (T := ⟨S600000x128, .f32⟩) main_v22) (TRef.of (T := ⟨S600000x128, .f32⟩) main_call0_v0) (TRef.of (T := ⟨S600000x128, .f32⟩) main_v23) maximumf,
    binary main_v23 main_arg4 main_v24 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg5 main_v25 (broadcastInDim S1x128 ![1] bcast_S128_S1x128_1 : (⟨S128, .f32⟩ : BufTy).Contents (Elt F) → (⟨S1x128, .f32⟩ : BufTy).Contents (Elt F)),
    unary main_v25 main_v26 (broadcastInDim S600000x128 ![0, 1] bcast_S1x128_S600000x128_0_1 : (⟨S1x128, .f32⟩ : BufTy).Contents (Elt F) → (⟨S600000x128, .f32⟩ : BufTy).Contents (Elt F)),
    binary main_v24 main_v26 main_v27 (addf : (⟨S600000x128, .f32⟩ : BufTy).Contents (Elt F) → (⟨S600000x128, .f32⟩ : BufTy).Contents (Elt F) → (⟨S600000x128, .f32⟩ : BufTy).Contents (Elt F)),
    binary main_v27 main_arg6 main_v28 ((fun l r => Host.dotGeneral dot_S600000x128_S128x1_S600000x1_1_0_0_1_n_n none l r) : (⟨S600000x128, .f32⟩ : BufTy).Contents (Elt F) → (⟨S128x1, .f32⟩ : BufTy).Contents (Elt F) → (⟨S600000x1, .f32⟩ : BufTy).Contents (Elt F)),
    unary main_arg7 main_v29 (broadcastInDim S1x1 ![1] bcast_S1_S1x1_1 : (⟨S1, .f32⟩ : BufTy).Contents (Elt F) → (⟨S1x1, .f32⟩ : BufTy).Contents (Elt F)),
    unary main_v29 main_v30 (broadcastInDim S600000x1 ![0, 1] bcast_S1x1_S600000x1_0_1 : (⟨S1x1, .f32⟩ : BufTy).Contents (Elt F) → (⟨S600000x1, .f32⟩ : BufTy).Contents (Elt F)),
    binary main_v28 main_v30 main_v31 (addf : (⟨S600000x1, .f32⟩ : BufTy).Contents (Elt F) → (⟨S600000x1, .f32⟩ : BufTy).Contents (Elt F) → (⟨S600000x1, .f32⟩ : BufTy).Contents (Elt F)),
    nullary main_cst (constant S_ .f32 0xFF800000#32),
    binary main_v31 main_cst main_v32 ((fun x v => Host.reduce FloatOps.maximumf x v reducesTo_S600000x1_S1_d0 h_S_) : (⟨S600000x1, .f32⟩ : BufTy).Contents (Elt F) → (⟨S_, .f32⟩ : BufTy).Contents (Elt F) → (⟨S1, .f32⟩ : BufTy).Contents (Elt F)),
    nullary main_cst_3 (constant S_ .f32 0xFF800000#32),
    unary main_cst_3 main_v33 (broadcastInDim S1 ![] bcast_S_S1 : (⟨S_, .f32⟩ : BufTy).Contents (Elt F) → (⟨S1, .f32⟩ : BufTy).Contents (Elt F)),
    binary main_v33 main_v32 main_v34 (maximumf : (⟨S1, .f32⟩ : BufTy).Contents (Elt F) → (⟨S1, .f32⟩ : BufTy).Contents (Elt F) → (⟨S1, .f32⟩ : BufTy).Contents (Elt F)),
    unary main_v34 main_v35 (broadcastInDim S1x1 ![1] bcast_S1_S1x1_1 : (⟨S1, .f32⟩ : BufTy).Contents (Elt F) → (⟨S1x1, .f32⟩ : BufTy).Contents (Elt F)),
    unary main_v35 main_v36 (broadcastInDim S600000x1 ![0, 1] bcast_S1x1_S600000x1_0_1 : (⟨S1x1, .f32⟩ : BufTy).Contents (Elt F) → (⟨S600000x1, .f32⟩ : BufTy).Contents (Elt F)),
    binary main_v31 main_v36 main_v37 (subf : (⟨S600000x1, .f32⟩ : BufTy).Contents (Elt F) → (⟨S600000x1, .f32⟩ : BufTy).Contents (Elt F) → (⟨S600000x1, .f32⟩ : BufTy).Contents (Elt F)),
    unary main_v37 main_v38 (Host.exp : (⟨S600000x1, .f32⟩ : BufTy).Contents (Elt F) → (⟨S600000x1, .f32⟩ : BufTy).Contents (Elt F)),
    nullary main_cst_4 (constant S_ .f32 0x00000000#32),
    binary main_v38 main_cst_4 main_v39 ((fun x v => Host.reduceAdd x v reducesTo_S600000x1_S1_d0 h_S_) : (⟨S600000x1, .f32⟩ : BufTy).Contents (Elt F) → (⟨S_, .f32⟩ : BufTy).Contents (Elt F) → (⟨S1, .f32⟩ : BufTy).Contents (Elt F)),
    unary main_v39 main_v40 (broadcastInDim S1x1 ![1] bcast_S1_S1x1_1 : (⟨S1, .f32⟩ : BufTy).Contents (Elt F) → (⟨S1x1, .f32⟩ : BufTy).Contents (Elt F)),
    unary main_v40 main_v41 (broadcastInDim S600000x1 ![0, 1] bcast_S1x1_S600000x1_0_1 : (⟨S1x1, .f32⟩ : BufTy).Contents (Elt F) → (⟨S600000x1, .f32⟩ : BufTy).Contents (Elt F)),
    binary main_v38 main_v41 main_v42 (Host.divf : (⟨S600000x1, .f32⟩ : BufTy).Contents (Elt F) → (⟨S600000x1, .f32⟩ : BufTy).Contents (Elt F) → (⟨S600000x1, .f32⟩ : BufTy).Contents (Elt F)),
    unary main_v42 main_v43 (broadcastInDim S600000x128 ![0, 1] bcast_S600000x1_S600000x128_0_1 : (⟨S600000x1, .f32⟩ : BufTy).Contents (Elt F) → (⟨S600000x128, .f32⟩ : BufTy).Contents (Elt F)),
    binary main_v27 main_v43 main_v44 (mulf : (⟨S600000x128, .f32⟩ : BufTy).Contents (Elt F) → (⟨S600000x128, .f32⟩ : BufTy).Contents (Elt F) → (⟨S600000x128, .f32⟩ : BufTy).Contents (Elt F)),
    nullary main_cst_5 (constant S_ .f32 0x00000000#32),
    unary main_cst_5 main_v45 (broadcastInDim S100000x128 ![] bcast_S_S100000x128 : (⟨S_, .f32⟩ : BufTy).Contents (Elt F) → (⟨S100000x128, .f32⟩ : BufTy).Contents (Elt F)),
    unary main_v3 main_v46 (broadcastInDim S600000x1 ![0] bcast_S600000_S600000x1_0 : (⟨S600000, .i32⟩ : BufTy).Contents (Elt F) → (⟨S600000x1, .i32⟩ : BufTy).Contents (Elt F)),
    ternary main_v45 main_v46 main_v44 main_v47 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

/-- Operation 59: the two-piece concatenation. -/
abbrev opsD : List (HloOp τ sig (Elt F)) :=
  [ binary main_arg0 main_v47 main_v48 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)) ]

/-- Operations 60 to 71: the update perceptron and the residual sum. -/
abbrev opsE : List (HloOp τ sig (Elt F)) :=
  [ binary main_v48 main_arg8 main_v49 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg9 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v49 main_v51 main_v52 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v52) (TRef.of (T := ⟨S100000x128, .f32⟩) main_call1_v0) (TRef.of (T := ⟨S100000x128, .f32⟩) main_v53) maximumf,
    binary main_v53 main_arg10 main_v54 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v55 (broadcastInDim S1x128 ![1] bcast_S128_S1x128_1 : (⟨S128, .f32⟩ : BufTy).Contents (Elt F) → (⟨S1x128, .f32⟩ : BufTy).Contents (Elt F)),
    unary main_v55 main_v56 (broadcastInDim S100000x128 ![0, 1] bcast_S1x128_S100000x128_0_1 : (⟨S1x128, .f32⟩ : BufTy).Contents (Elt F) → (⟨S100000x128, .f32⟩ : BufTy).Contents (Elt F)),
    binary main_v54 main_v56 main_v57 (addf : (⟨S100000x128, .f32⟩ : BufTy).Contents (Elt F) → (⟨S100000x128, .f32⟩ : BufTy).Contents (Elt F) → (⟨S100000x128, .f32⟩ : BufTy).Contents (Elt F)),
    binary main_v57 main_arg0 main_v58 (addf : (⟨S100000x128, .f32⟩ : BufTy).Contents (Elt F) → (⟨S100000x128, .f32⟩ : BufTy).Contents (Elt F) → (⟨S100000x128, .f32⟩ : BufTy).Contents (Elt F)) ]

/-- The whole line is the five stretches one after the other. -/
theorem ops_split (V : Valuation τ sig (Elt F)) :
    after (ops (F := F)) V = after opsE (after opsD (after opsC (after opsB (after opsA V)))) := rfl

/-! ### The first stretch, from any contents -/

theorem A_v10 (V : Valuation τ sig (Elt F)) :
    after (opsA (F := F)) V (Proc.devRef .tc main_v10)
      = val_main_v10 (F := F) (V (Proc.devRef .tc main_arg0)) (V (Proc.devRef .tc main_arg12)) := by
  simp only [opsA]; after_results_simp
  rfl

theorem A_v17 (V : Valuation τ sig (Elt F)) :
    after (opsA (F := F)) V (Proc.devRef .tc main_v17)
      = val_main_v17 (F := F) (V (Proc.devRef .tc main_arg0)) (V (Proc.devRef .tc main_arg12)) := by
  simp only [opsA]; after_results_simp
  rfl

theorem A_v3 (V : Valuation τ sig (Elt F)) :
    after (opsA (F := F)) V (Proc.devRef .tc main_v3) = val_main_v3 (F := F) (V (Proc.devRef .tc main_arg12)) := by
  simp only [opsA]; after_results_simp
  rfl

theorem A_arg0 (V : Valuation τ sig (Elt F)) :
    after (opsA (F := F)) V (Proc.devRef .tc main_arg0) = V (Proc.devRef .tc main_arg0) := by
  simp only [opsA]; after_results_simp

theorem A_arg1 (V : Valuation τ sig (Elt F)) :
    after (opsA (F := F)) V (Proc.devRef .tc main_arg1) = V (Proc.devRef .tc main_arg1) := by
  simp only [opsA]; after_results_simp

theorem A_arg2 (V : Valuation τ sig (Elt F)) :
    after (opsA (F := F)) V (Proc.devRef .tc main_arg2) = V (Proc.devRef .tc main_arg2) := by
  simp only [opsA]; after_results_simp

theorem A_arg3 (V : Valuation τ sig (Elt F)) :
    after (opsA (F := F)) V (Proc.devRef .tc main_arg3) = V (Proc.devRef .tc main_arg3) := by
  simp only [opsA]; after_results_simp

theorem A_arg4 (V : Valuation τ sig (Elt F)) :
    after (opsA (F := F)) V (Proc.devRef .tc main_arg4) = V (Proc.devRef .tc main_arg4) := by
  simp only [opsA]; after_results_simp

theorem A_arg5 (V : Valuation τ sig (Elt F)) :
    after (opsA (F := F)) V (Proc.devRef .tc main_arg5) = V (Proc.devRef .tc main_arg5) := by
  simp only [opsA]; after_results_simp

theorem A_arg6 (V : Valuation τ sig (Elt F)) :
    after (opsA (F := F)) V (Proc.devRef .tc main_arg6) = V (Proc.devRef .tc main_arg6) := by
  simp only [opsA]; after_results_simp

theorem A_arg7 (V : Valuation τ sig (Elt F)) :
    after (opsA (F := F)) V (Proc.devRef .tc main_arg7) = V (Proc.devRef .tc main_arg7) := by
  simp only [opsA]; after_results_simp

theorem A_arg8 (V : Valuation τ sig (Elt F)) :
    after (opsA (F := F)) V (Proc.devRef .tc main_arg8) = V (Proc.devRef .tc main_arg8) := by
  simp only [opsA]; after_results_simp

theorem A_arg9 (V : Valuation τ sig (Elt F)) :
    after (opsA (F := F)) V (Proc.devRef .tc main_arg9) = V (Proc.devRef .tc main_arg9) := by
  simp only [opsA]; after_results_simp

theorem A_arg10 (V : Valuation τ sig (Elt F)) :
    after (opsA (F := F)) V (Proc.devRef .tc main_arg10) = V (Proc.devRef .tc main_arg10) := by
  simp only [opsA]; after_results_simp

theorem A_arg11 (V : Valuation τ sig (Elt F)) :
    after (opsA (F := F)) V (Proc.devRef .tc main_arg11) = V (Proc.devRef .tc main_arg11) := by
  simp only [opsA]; after_results_simp

/-! ### The three-piece concatenation, from any contents -/

theorem B_v18 (V : Valuation τ sig (Elt F)) :
    after (opsB (F := F)) V (Proc.devRef .tc main_v18)
      = concatenate S600000x288 1 [⟨S600000x128, V (Proc.devRef .tc main_v10)⟩, ⟨S600000x128, V (Proc.devRef .tc main_v17)⟩, ⟨S600000x32, V (Proc.devRef .tc main_arg1)⟩] concatenates_S600000x128_S600000x128_S600000x32_S600000x288_d1 := by
  simp only [opsB, after_cons, after_nil]
  rw [nary3_result]
  rfl

theorem B_ne (V : Valuation τ sig (Elt F)) {r : Ref sig .tc} (h : r ≠ main_v18) :
    after (opsB (F := F)) V (Proc.devRef .tc r) = V (Proc.devRef .tc r) := by
  simp only [opsB, after_cons, after_nil]
  exact nary_result_ne _ _ _ _ _ V h

/-- Equal pieces give equal three-piece concatenations. -/
theorem conc3_congr {a a' b b' : (⟨S600000x128, .f32⟩ : BufTy).Contents (Elt F)} {d d' : (⟨S600000x32, .f32⟩ : BufTy).Contents (Elt F)}
    (ha : a = a') (hb : b = b') (hd : d = d') :
    concatenate S600000x288 1 [⟨S600000x128, a⟩, ⟨S600000x128, b⟩, ⟨S600000x32, d⟩] concatenates_S600000x128_S600000x128_S600000x32_S600000x288_d1
      = concatenate S600000x288 1 [⟨S600000x128, a'⟩, ⟨S600000x128, b'⟩, ⟨S600000x32, d'⟩] concatenates_S600000x128_S600000x128_S600000x32_S600000x288_d1 := by
  subst ha; subst hb; subst hd; rfl

/-! ### The third stretch, from contents that hold the concatenated rows, the second index row and the arguments -/

theorem C_v47 (V : Valuation τ sig (Elt F)) (x0 : (⟨S100000x128, .f32⟩ : BufTy).Contents (Elt F)) (x1 : (⟨S600000x32, .f32⟩ : BufTy).Contents (Elt F)) (x2 : (⟨S288x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x1, .f32⟩ : BufTy).Contents (Elt F)) (x7 : (⟨S1, .f32⟩ : BufTy).Contents (Elt F)) (x12 : (⟨S2x600000, .i32⟩ : BufTy).Contents (Elt F))
    (h18 : V (Proc.devRef .tc main_v18) = val_main_v18 (F := F) x0 x1 x12)
    (h3 : V (Proc.devRef .tc main_v3) = val_main_v3 (F := F) x12)
    (e2 : V (Proc.devRef .tc main_arg2) = x2) (e3 : V (Proc.devRef .tc main_arg3) = x3) (e4 : V (Proc.devRef .tc main_arg4) = x4) (e5 : V (Proc.devRef .tc main_arg5) = x5) (e6 : V (Proc.devRef .tc main_arg6) = x6) (e7 : V (Proc.devRef .tc main_arg7) = x7) :
    after (opsC (F := F)) V (Proc.devRef .tc main_v47)
      = val_main_v47 (F := F) x0 x1 x2 x3 x4 x5 x6 x7 x12 := by
  simp only [opsC]; after_results_simp
  simp only [TRef.ofBuf, TRef.toBuf, cast_eq]
  rw [h18, h3, e2, e3, e4, e5, e6, e7]
  rfl

theorem C_arg0 (V : Valuation τ sig (Elt F)) :
    after (opsC (F := F)) V (Proc.devRef .tc main_arg0) = V (Proc.devRef .tc main_arg0) := by
  simp only [opsC]; after_results_simp

theorem C_arg8 (V : Valuation τ sig (Elt F)) :
    after (opsC (F := F)) V (Proc.devRef .tc main_arg8) = V (Proc.devRef .tc main_arg8) := by
  simp only [opsC]; after_results_simp

theorem C_arg9 (V : Valuation τ sig (Elt F)) :
    after (opsC (F := F)) V (Proc.devRef .tc main_arg9) = V (Proc.devRef .tc main_arg9) := by
  simp only [opsC]; after_results_simp

theorem C_arg10 (V : Valuation τ sig (Elt F)) :
    after (opsC (F := F)) V (Proc.devRef .tc main_arg10) = V (Proc.devRef .tc main_arg10) := by
  simp only [opsC]; after_results_simp

theorem C_arg11 (V : Valuation τ sig (Elt F)) :
    after (opsC (F := F)) V (Proc.devRef .tc main_arg11) = V (Proc.devRef .tc main_arg11) := by
  simp only [opsC]; after_results_simp

/-! ### The two-piece concatenation, from any contents -/

theorem D_v48 (V : Valuation τ sig (Elt F)) :
    after (opsD (F := F)) V (Proc.devRef .tc main_v48)
      = concatenate S100000x256 1 [⟨S100000x128, V (Proc.devRef .tc main_arg0)⟩, ⟨S100000x128, V (Proc.devRef .tc main_v47)⟩] concatenates_S100000x128_S100000x128_S100000x256_d1 := by
  simp only [opsD, after_cons, after_nil]
  rw [binary_result]

theorem D_ne (V : Valuation τ sig (Elt F)) {r : Ref sig .tc} (h : r ≠ main_v48) :
    after (opsD (F := F)) V (Proc.devRef .tc r) = V (Proc.devRef .tc r) := by
  simp only [opsD, after_cons, after_nil]
  exact binary_result_ne _ _ _ _ _ _ _ V h

/-- Equal pieces give equal two-piece concatenations. -/
theorem conc2_congr {a a' b b' : (⟨S100000x128, .f32⟩ : BufTy).Contents (Elt F)} (ha : a = a') (hb : b = b') :
    concatenate S100000x256 1 [⟨S100000x128, a⟩, ⟨S100000x128, b⟩] concatenates_S100000x128_S100000x128_S100000x256_d1
      = concatenate S100000x256 1 [⟨S100000x128, a'⟩, ⟨S100000x128, b'⟩] concatenates_S100000x128_S100000x128_S100000x256_d1 := by
  subst ha; subst hb; rfl

/-! ### The last stretch, from contents that hold the concatenated rows and the arguments -/

theorem E_v58 (V : Valuation τ sig (Elt F)) (x0 : (⟨S100000x128, .f32⟩ : BufTy).Contents (Elt F)) (x1 : (⟨S600000x32, .f32⟩ : BufTy).Contents (Elt F)) (x2 : (⟨S288x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x1, .f32⟩ : BufTy).Contents (Elt F)) (x7 : (⟨S1, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S2x600000, .i32⟩ : BufTy).Contents (Elt F))
    (h48 : V (Proc.devRef .tc main_v48) = val_main_v48 (F := F) x0 x1 x2 x3 x4 x5 x6 x7 x12)
    (e0 : V (Proc.devRef .tc main_arg0) = x0) (e8 : V (Proc.devRef .tc main_arg8) = x8) (e9 : V (Proc.devRef .tc main_arg9) = x9) (e10 : V (Proc.devRef .tc main_arg10) = x10) (e11 : V (Proc.devRef .tc main_arg11) = x11) :
    after (opsE (F := F)) V (Proc.devRef .tc main_v58)
      = val_main_v58 (F := F) x0 x1 x2 x3 x4 x5 x6 x7 x8 x9 x10 x11 x12 := by
  simp only [opsE]; after_results_simp
  simp only [TRef.ofBuf, TRef.toBuf, cast_eq]
  rw [h48, e0, e8, e9, e10, e11]
  rfl

/-! ### The whole line -/

theorem fold_v58 (m : (ℓ : Loc nD τ sig) → Buf (Elt F) ℓ) (c : Dev nD) :
    after (ops (F := F)) (launchContents m c) (Proc.devRef .tc main_v58)
      = val_main_v58 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (congrFun (ops_split (launchContents m c)) _).trans ?_
  generalize hVA : after (opsA (F := F)) (launchContents m c) = VA
  have a10 : VA (Proc.devRef .tc main_v10) = val_main_v10 (F := F) (m ((c.tc : Thread nD τ).loc main_arg0)) (m ((c.tc : Thread nD τ).loc main_arg12)) := by
    rw [← hVA]; exact A_v10 _
  have a17 : VA (Proc.devRef .tc main_v17) = val_main_v17 (F := F) (m ((c.tc : Thread nD τ).loc main_arg0)) (m ((c.tc : Thread nD τ).loc main_arg12)) := by
    rw [← hVA]; exact A_v17 _
  have a3 : VA (Proc.devRef .tc main_v3) = val_main_v3 (F := F) (m ((c.tc : Thread nD τ).loc main_arg12)) := by
    rw [← hVA]; exact A_v3 _
  have aa0 : VA (Proc.devRef .tc main_arg0) = m ((c.tc : Thread nD τ).loc main_arg0) := by
    rw [← hVA]; exact A_arg0 _
  have aa1 : VA (Proc.devRef .tc main_arg1) = m ((c.tc : Thread nD τ).loc main_arg1) := by
    rw [← hVA]; exact A_arg1 _
  have aa2 : VA (Proc.devRef .tc main_arg2) = m ((c.tc : Thread nD τ).loc main_arg2) := by
    rw [← hVA]; exact A_arg2 _
  have aa3 : VA (Proc.devRef .tc main_arg3) = m ((c.tc : Thread nD τ).loc main_arg3) := by
    rw [← hVA]; exact A_arg3 _
  have aa4 : VA (Proc.devRef .tc main_arg4) = m ((c.tc : Thread nD τ).loc main_arg4) := by
    rw [← hVA]; exact A_arg4 _
  have aa5 : VA (Proc.devRef .tc main_arg5) = m ((c.tc : Thread nD τ).loc main_arg5) := by
    rw [← hVA]; exact A_arg5 _
  have aa6 : VA (Proc.devRef .tc main_arg6) = m ((c.tc : Thread nD τ).loc main_arg6) := by
    rw [← hVA]; exact A_arg6 _
  have aa7 : VA (Proc.devRef .tc main_arg7) = m ((c.tc : Thread nD τ).loc main_arg7) := by
    rw [← hVA]; exact A_arg7 _
  have aa8 : VA (Proc.devRef .tc main_arg8) = m ((c.tc : Thread nD τ).loc main_arg8) := by
    rw [← hVA]; exact A_arg8 _
  have aa9 : VA (Proc.devRef .tc main_arg9) = m ((c.tc : Thread nD τ).loc main_arg9) := by
    rw [← hVA]; exact A_arg9 _
  have aa10 : VA (Proc.devRef .tc main_arg10) = m ((c.tc : Thread nD τ).loc main_arg10) := by
    rw [← hVA]; exact A_arg10 _
  have aa11 : VA (Proc.devRef .tc main_arg11) = m ((c.tc : Thread nD τ).loc main_arg11) := by
    rw [← hVA]; exact A_arg11 _
  clear hVA
  generalize hVB : after (opsB (F := F)) VA = VB
  have b18 : VB (Proc.devRef .tc main_v18) = val_main_v18 (F := F) (m ((c.tc : Thread nD τ).loc main_arg0)) (m ((c.tc : Thread nD τ).loc main_arg1)) (m ((c.tc : Thread nD τ).loc main_arg12)) := by
    rw [← hVB]; exact (B_v18 VA).trans (conc3_congr a10 a17 aa1)
  have b3 : VB (Proc.devRef .tc main_v3) = val_main_v3 (F := F) (m ((c.tc : Thread nD τ).loc main_arg12)) := by
    rw [← hVB]; exact (B_ne VA (by decide)).trans a3
  have ba0 : VB (Proc.devRef .tc main_arg0) = m ((c.tc : Thread nD τ).loc main_arg0) := by
    rw [← hVB]; exact (B_ne VA (by decide)).trans aa0
  have ba2 : VB (Proc.devRef .tc main_arg2) = m ((c.tc : Thread nD τ).loc main_arg2) := by
    rw [← hVB]; exact (B_ne VA (by decide)).trans aa2
  have ba3 : VB (Proc.devRef .tc main_arg3) = m ((c.tc : Thread nD τ).loc main_arg3) := by
    rw [← hVB]; exact (B_ne VA (by decide)).trans aa3
  have ba4 : VB (Proc.devRef .tc main_arg4) = m ((c.tc : Thread nD τ).loc main_arg4) := by
    rw [← hVB]; exact (B_ne VA (by decide)).trans aa4
  have ba5 : VB (Proc.devRef .tc main_arg5) = m ((c.tc : Thread nD τ).loc main_arg5) := by
    rw [← hVB]; exact (B_ne VA (by decide)).trans aa5
  have ba6 : VB (Proc.devRef .tc main_arg6) = m ((c.tc : Thread nD τ).loc main_arg6) := by
    rw [← hVB]; exact (B_ne VA (by decide)).trans aa6
  have ba7 : VB (Proc.devRef .tc main_arg7) = m ((c.tc : Thread nD τ).loc main_arg7) := by
    rw [← hVB]; exact (B_ne VA (by decide)).trans aa7
  have ba8 : VB (Proc.devRef .tc main_arg8) = m ((c.tc : Thread nD τ).loc main_arg8) := by
    rw [← hVB]; exact (B_ne VA (by decide)).trans aa8
  have ba9 : VB (Proc.devRef .tc main_arg9) = m ((c.tc : Thread nD τ).loc main_arg9) := by
    rw [← hVB]; exact (B_ne VA (by decide)).trans aa9
  have ba10 : VB (Proc.devRef .tc main_arg10) = m ((c.tc : Thread nD τ).loc main_arg10) := by
    rw [← hVB]; exact (B_ne VA (by decide)).trans aa10
  have ba11 : VB (Proc.devRef .tc main_arg11) = m ((c.tc : Thread nD τ).loc main_arg11) := by
    rw [← hVB]; exact (B_ne VA (by decide)).trans aa11
  clear hVB
  generalize hVC : after (opsC (F := F)) VB = VC
  have c47 : VC (Proc.devRef .tc main_v47) = val_main_v47 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg12)) := by
    rw [← hVC]; exact C_v47 VB _ _ _ _ _ _ _ _ _ b18 b3 ba2 ba3 ba4 ba5 ba6 ba7
  have ca0 : VC (Proc.devRef .tc main_arg0) = m ((c.tc : Thread nD τ).loc main_arg0) := by
    rw [← hVC]; exact (C_arg0 VB).trans ba0
  have ca8 : VC (Proc.devRef .tc main_arg8) = m ((c.tc : Thread nD τ).loc main_arg8) := by
    rw [← hVC]; exact (C_arg8 VB).trans ba8
  have ca9 : VC (Proc.devRef .tc main_arg9) = m ((c.tc : Thread nD τ).loc main_arg9) := by
    rw [← hVC]; exact (C_arg9 VB).trans ba9
  have ca10 : VC (Proc.devRef .tc main_arg10) = m ((c.tc : Thread nD τ).loc main_arg10) := by
    rw [← hVC]; exact (C_arg10 VB).trans ba10
  have ca11 : VC (Proc.devRef .tc main_arg11) = m ((c.tc : Thread nD τ).loc main_arg11) := by
    rw [← hVC]; exact (C_arg11 VB).trans ba11
  clear hVC
  generalize hVD : after (opsD (F := F)) VC = VD
  have d48 : VD (Proc.devRef .tc main_v48) = val_main_v48 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg12)) := by
    rw [← hVD]; exact (D_v48 VC).trans (conc2_congr ca0 c47)
  have da0 : VD (Proc.devRef .tc main_arg0) = m ((c.tc : Thread nD τ).loc main_arg0) := by
    rw [← hVD]; exact (D_ne VC (by decide)).trans ca0
  have da8 : VD (Proc.devRef .tc main_arg8) = m ((c.tc : Thread nD τ).loc main_arg8) := by
    rw [← hVD]; exact (D_ne VC (by decide)).trans ca8
  have da9 : VD (Proc.devRef .tc main_arg9) = m ((c.tc : Thread nD τ).loc main_arg9) := by
    rw [← hVD]; exact (D_ne VC (by decide)).trans ca9
  have da10 : VD (Proc.devRef .tc main_arg10) = m ((c.tc : Thread nD τ).loc main_arg10) := by
    rw [← hVD]; exact (D_ne VC (by decide)).trans ca10
  have da11 : VD (Proc.devRef .tc main_arg11) = m ((c.tc : Thread nD τ).loc main_arg11) := by
    rw [← hVD]; exact (D_ne VC (by decide)).trans ca11
  exact E_v58 VD _ _ _ _ _ _ _ _ _ _ _ _ _ d48 da0 da8 da9 da10 da11

end Cert.ReferenceIdeal.RefFold

end
-- ==== Proof.Domain.lean ====
/-
  What the precondition says about the edge list, and what it buys.

  The precondition's last conjunct is a conjunction over every entry of the edge list of two signed word compares,
  `0 ≤ w` and `w < 100000`: every node number is a row of the node table. For such a number the wrap of negative numbers
  leaves it alone (`w < 0` is false), and the in-range test of the filled gather (`0 ≤ w` and `w ≤ 99999`) holds; so the
  test is all ones over the 600000 edges, its spread along the feature axis is all ones, and the selection between the
  gathered rows and the fill word takes the gathered row everywhere: the filled gather is the plain gather.
-/
import proofs.«412851_j57251914056302_1_alg».proof.Defs
import proofs.«412851_j57251914056302_1_alg».proof.Proof.Gen.KernelIdeal
import proofs.«412851_j57251914056302_1_alg».proof.Proof.Gen.Pre_finite_inputs
import proofs.«412851_j57251914056302_1_alg».proof.Proof.KernelTerms
import Idealize.ShloMosaic.Lib.ReduceAll
import Idealize.ShloMosaic.Lib.StableHlo.Predicate
import Idealize.ShloMosaic.Lib.ValueIdx
import Idealize.ShloMosaic.Lib.Pipeline.Value

noncomputable section

namespace Cert.KernelIdeal.Domain

open Cert.KernelIdeal Cert.KernelIdeal.Terms
open Idealize.ShloMosaic Idealize.ShloMosaic.TcCoe Idealize.SL.Sem Idealize.ShloMosaic.ValueIdx

/-- A node number is a row of the node table: `0 ≤ w < 100000` as a signed word. -/
def InRange (w : BitVec 32) : Prop := 0 ≤ w.toInt ∧ w.toInt < 100000

/-! ## Words -/

theorem toInt_zero32 : (0#32 : BitVec 32).toInt = 0 := by decide
theorem toInt_100000 : (100000#32 : BitVec 32).toInt = 100000 := by decide
theorem toInt_99999 : (99999#32 : BitVec 32).toInt = 99999 := by decide

/-- A word that passes the two compares of the precondition is in range. -/
theorem inRange_of_cmp (w : BitVec 32) (h0 : IntOp.cmpi .sge w 0#32 = 1#1) (h1 : IntOp.cmpi .slt w 100000#32 = 1#1) :
    InRange w := by
  have a := IntOp.cmpi_sge.1 h0
  have b := IntOp.cmpi_slt.1 h1
  rw [toInt_zero32] at a
  rw [toInt_100000] at b
  exact ⟨a, b⟩

/-- The wrap of a negative number leaves a number in range alone: `w < 0` is false. -/
theorem wrap_word (w : BitVec 32) (hw : InRange w) :
    Scalar.select (IntOp.cmpi .slt w 0#32) (IntOp.addi w 100000#32) w = w := by
  have hn : ¬ IntOp.cmpi .slt w 0#32 = 1#1 := by
    intro hc
    have := IntOp.cmpi_slt.1 hc
    rw [toInt_zero32] at this
    exact absurd hw.1 (by omega)
  rw [eq_zero_of_ne_one hn, select_zero]

/-- A number in range passes the two compares of the in-range test `0 ≤ w ≤ 99999`. -/
theorem bounds_word (w : BitVec 32) (hw : InRange w) :
    IntOp.andi (IntOp.cmpi .sge w 0#32) (IntOp.cmpi .sle w 99999#32) = 1#1 := by
  refine IntOp.andi_eq_one.2 ⟨IntOp.cmpi_sge.2 ?_, IntOp.cmpi_sle.2 ?_⟩
  · rw [toInt_zero32]; exact hw.1
  · rw [toInt_99999]; have := hw.2; omega

/-! ## A reduce by `and` of an array of ones is one -/

/-- A left fold by `and` from 1 over 1s is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l (fun n hn => h n (List.mem_cons_of_mem _ hn))

/-- A `stablehlo.reduce` by `and` from 1 of an array whose every element is 1 is 1 everywhere. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ (fun i _ => hx i)

/-! ## The precondition read at an entry of the edge list -/

/-- The last conjunct of the printed precondition: the reduce-and of the two compares of the edge list. -/
theorem part3_last (a11 : FVec Ideal Cert.Pre_finite_inputs.S128 .f32) (a12 : IVec Cert.Pre_finite_inputs.S2x600000 32)
    (v48 : IVec Cert.Pre_finite_inputs.S_ 1) (v49 v50 : FVec Ideal Cert.Pre_finite_inputs.S128x128 .f32)
    (h : Cert.Pre_finite_inputs.fn_part3 (F := Ideal) a11 a12 v48 v49 v50 ix0 = 1#1) (i : Cert.Pre_finite_inputs.S2x600000.Idx) :
    InRange (a12 i) := by
  unfold Cert.Pre_finite_inputs.fn_part3 at h
  have h2 := (IntOp.andi_eq_one.1 h).2
  haveI : Subsingleton Cert.Pre_finite_inputs.S_.Idx := ⟨fun a b => funext fun d => d.elim0⟩
  have h3 := Host.reduce_andi_all _ _ _ _ _ h2 i
  have h4 := IntOp.andi_eq_one.1 h3
  exact inRange_of_cmp _ h4.1 h4.2

theorem inRange_of_pre (m : (ℓ : Loc nD τ sig) → Buf (Elt Ideal) ℓ) (hpre : Cert.Pre_KernelIdeal m) (c : Dev nD) (i : S2x600000.Idx) :
    InRange (m ((c.tc : Thread nD τ).loc main_arg12) i) := by
  have h := congrFun (hpre c) ValueIdx.ix0
  unfold Cert.Pre_finite_inputs.fn Cert.Pre_finite_inputs.fn_part1 Cert.Pre_finite_inputs.fn_part2 at h
  exact part3_last _ _ _ _ _ h i

/-! ## The two rows of the edge list -/

theorem rowOf_inRange (x12 : IVec S2x600000 32) (h : ∀ i, InRange (x12 i)) (e : S600000.Idx) : InRange (rowOf x12 e) := by
  unfold rowOf shapeCast extractStridedSlice
  exact h _

theorem colOf_inRange (x12 : IVec S2x600000 32) (h : ∀ i, InRange (x12 i)) (e : S600000.Idx) : InRange (colOf x12 e) := by
  unfold colOf shapeCast extractStridedSlice
  exact h _

/-! ## The filled gather, when every index is a row of the table -/

/-- The wrapped index column read at an entry is an index itself (the wrap leaves it alone), so it is in range. -/
theorem wrapIdx_inRange (idx : IVec S600000 32) (h : ∀ e, InRange (idx e)) (i : S600000x1.Idx) :
    InRange (wrapIdx idx i) := by
  unfold wrapIdx broadcastInDim
  show InRange (Scalar.select (IntOp.cmpi .slt (idx _) 0#32) (IntOp.addi (idx _) 100000#32) (idx _))
  rw [wrap_word _ (h _)]
  exact h _

/-- The in-range test of the wrapped indices is all ones. -/
theorem inBounds_one (idx : IVec S600000 32) (h : ∀ e, InRange (idx e)) (e : S600000.Idx) :
    inBounds (wrapIdx idx) e = 1#1 := by
  unfold inBounds
  refine reduce_andi_of_all _ _ _ _ _ rfl (fun i => ?_)
  show IntOp.andi (IntOp.cmpi .sge (wrapIdx idx i) 0#32) (IntOp.cmpi .sle (wrapIdx idx i) 99999#32) = 1#1
  exact bounds_word _ (wrapIdx_inRange idx h i)

theorem takeK_eq_gather (x0 : Vec Ideal S100000x128 .f32) (idx : IVec S600000 32) (h : ∀ e, InRange (idx e)) :
    takeK (F := Ideal) x0 idx = Host.gather gather_S100000x128_S600000x1_S600000x128_1_0_n_n_0_1_1128 x0 (wrapIdx idx) := by
  funext j
  unfold takeK
  rw [select_apply]
  unfold broadcastInDim
  rw [inBounds_one idx h, select_one]

end Cert.KernelIdeal.Domain

end
-- ==== Proof.Bridge.lean ====
/-
  The two programs compute one function of the arguments.

  Under the precondition every edge's two node numbers are rows of the node table, so the in-range test of the filled
  gather is all ones and the filled gather IS the plain gather of the other program (whose wrap of negative numbers is the
  same operation). The messages then agree edge by edge: the three partial products over the three bands of the first
  weight matrix add up to the one product over its 288 rows. The chain from the messages to what each node receives
  (attention logit, softmax over all edges, weighting, scatter-add) is the same chain of host operations in both programs,
  applied to equal messages. The new node values agree node by node: the two partial products over the two bands of the
  update matrix add up to the one product over its 256 rows, and the zero rows the tiled program pads with never reach
  the first 100000 rows of its result.
-/
import proofs.«412851_j57251914056302_1_alg».proof.Defs
import proofs.«412851_j57251914056302_1_alg».proof.Proof.KernelFold1
import proofs.«412851_j57251914056302_1_alg».proof.Proof.RefValue
import proofs.«412851_j57251914056302_1_alg».proof.Proof.RefFold
import proofs.«412851_j57251914056302_1_alg».proof.Proof.Domain

set_option maxRecDepth 16384

noncomputable section

namespace Cert.Bridge

open Idealize.ShloMosaic Idealize.ShloMosaic.TcCoe Idealize.SL.Sem Idealize.ShloMosaic.ValueIdx
open Cert.KernelIdeal (S100000x128 S600000x32 S288x128 S128 S128x128 S128x1 S1 S256x128 S2x600000 S600000x128 S600000)
open Cert.KernelIdeal.Terms Cert.KernelIdeal.Fold Cert.KernelIdeal.Domain
open Cert.ReferenceIdeal.ReadP

/-! ## The same host operations in both programs -/

section Terms

variable {F : FTy → Type} [FloatOps F]
variable (x0 : Vec F S100000x128 .f32) (x1 : Vec F S600000x32 .f32) (x2 : Vec F S288x128 .f32) (x3 : Vec F S128 .f32)
  (x4 : Vec F S128x128 .f32) (x5 : Vec F S128 .f32) (x6 : Vec F S128x1 .f32) (x7 : Vec F S1 .f32) (x12 : IVec S2x600000 32)

/-- The plain program's first gather is the gather of the wrapped first end nodes. -/
theorem ref_gather_row : val_main_v10 (F := F) x0 x12
    = Host.gather Cert.KernelIdeal.gather_S100000x128_S600000x1_S600000x128_1_0_n_n_0_1_1128 x0 (wrapIdx (rowOf x12)) := rfl

/-- The plain program's second gather is the gather of the wrapped second end nodes. -/
theorem ref_gather_col : val_main_v17 (F := F) x0 x12
    = Host.gather Cert.KernelIdeal.gather_S100000x128_S600000x1_S600000x128_1_0_n_n_0_1_1128 x0 (wrapIdx (colOf x12)) := rfl

/-- What each node receives in the plain program is the shared chain applied to ITS messages. -/
theorem ref_agg : val_main_v47 (F := F) x0 x1 x2 x3 x4 x5 x6 x7 x12
    = midK (F := F) (val_main_v27 (F := F) x0 x1 x2 x3 x4 x5 x12) x6 x7 (colOf x12) := rfl

end Terms

/-! ## The two programs' values -/

section Values

variable (m : (ℓ : Loc Cert.KernelIdeal.nD Cert.KernelIdeal.τ Cert.KernelIdeal.sig) → Buf (Elt Ideal) ℓ)
  (ρ : Dev Cert.KernelIdeal.nD → PrngReg)

/-- Edge by edge the tiled program's messages are the plain program's. -/
theorem msgs_eq (c : Dev Cert.KernelIdeal.nD) (hr : ∀ i, InRange (x12 m c i)) :
    msgsK m ρ c = val_main_v27 (F := Ideal) (x0 m c) (x1 m c) (x2 m c) (x3 m c) (x4 m c) (x5 m c) (x12 m c) := by
  funext i
  obtain ⟨e, j, rfl⟩ : ∃ (e : Fin 600000) (j : Fin 128), i = ix2 e j := ⟨i 0, i 1, eq_ix2 i⟩
  rw [msgsK_apply, Cert.ReferenceIdeal.RefValue.msg_apply, ← Cert.Spec.msgRowK_eq_msgRow,
    takeK_eq_gather _ _ (rowOf_inRange _ hr), takeK_eq_gather _ _ (colOf_inRange _ hr), ref_gather_row, ref_gather_col]

/-- What each node receives is the same in both programs. -/
theorem agg_eq (c : Dev Cert.KernelIdeal.nD) (hr : ∀ i, InRange (x12 m c i)) :
    aggK m ρ c = val_main_v47 (F := Ideal) (x0 m c) (x1 m c) (x2 m c) (x3 m c) (x4 m c) (x5 m c) (x6 m c) (x7 m c) (x12 m c) := by
  unfold aggK
  rw [msgs_eq m ρ c hr, ref_agg]

/-- Node by node the tiled program's result is the plain program's. -/
theorem out_eq (c : Dev Cert.KernelIdeal.nD) (hr : ∀ i, InRange (x12 m c i)) :
    (Cert.KernelIdeal.Gen.W16 m ρ c (Proc.devRef .tc Cert.KernelIdeal.main_v43) : Vec Ideal S100000x128 .f32)
      = val_main_v58 (F := Ideal) (x0 m c) (x1 m c) (x2 m c) (x3 m c) (x4 m c) (x5 m c) (x6 m c) (x7 m c) (x8 m c) (x9 m c) (x10 m c) (x11 m c) (x12 m c) := by
  funext i
  obtain ⟨n, j, rfl⟩ : ∃ (n : Fin 100000) (j : Fin 128), i = ix2 n j := ⟨i 0, i 1, eq_ix2 i⟩
  rw [result_apply, Cert.ReferenceIdeal.RefValue.out_apply, ← Cert.Spec.updRowK_eq_updRow, agg_eq m ρ c hr]

/-- The two programs' results, from memories that agree on the arguments and satisfy the precondition. -/
theorem result_eq (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    (StableHlo.after (Cert.ReferenceIdeal.ValueP.ops (F := Ideal)) (StableHlo.launchContents m' c)
        (Proc.devRef .tc Cert.ReferenceIdeal.main_v58) : Vec Ideal S100000x128 .f32)
      = Cert.KernelIdeal.Gen.W16 m ρ c (Proc.devRef .tc Cert.KernelIdeal.main_v43) := by
  rw [Cert.ReferenceIdeal.RefFold.fold_v58, h0, h1, h2, h3, h4, h5, h6, h7, h8, h9, h10, h11, h12]
  exact (out_eq m ρ c (fun i => inRange_of_pre m hpre c i)).symm

end Values

end Cert.Bridge

end
-- ==== Proof.lean ====
/-
  A graph-convolution layer: per edge a two-layer perceptron of the two end nodes' features and the edge's features,
  a softmax over all edges of a learned score, a weighted sum of the messages into each edge's second end node, and per node
  a two-layer perceptron of its features and that sum, plus the node's own features.

  The tiled program gathers the end nodes' rows with a filled gather (rows outside the table replaced by a fill word),
  pads the rows to a multiple of 4096, runs each perceptron tile by tile with the first weight matrix cut into row bands,
  and slices the padding off; the plain program gathers with a clamped gather, lays the pieces end to end and multiplies
  once. Over the extended reals, from equal arguments whose node numbers are rows of the node table, both end at the same
  array: the filled gather is then the plain gather, a sum over 288 (or 256) products is the sum of its bands' partial
  sums, the shared chain from messages to received sums is applied to equal messages, and the padding rows are never
  read back. The frames of the two tiled programs are their generated frame certificates; the plain program's frame is
  its generated run with the result dropped; the idealization rewrote nothing.
-/
import proofs.«412851_j57251914056302_1_alg».proof.Defs
import proofs.«412851_j57251914056302_1_alg».proof.Proof.Gen.Kernel.Frame
import proofs.«412851_j57251914056302_1_alg».proof.Proof.Gen.KernelIdeal.Frame
import proofs.«412851_j57251914056302_1_alg».proof.Proof.RefRun
import proofs.«412851_j57251914056302_1_alg».proof.Proof.KernelRun
import proofs.«412851_j57251914056302_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The plain program's frame: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs run, and the plain program's result is the tiled program's. -/
theorem algebraic : Cert.algebraic_KernelIdeal_ReferenceIdeal := by
  intro m ρ m' ρ' hpre hagree
  refine ⟨_, Cert.KernelIdeal.ValueRun.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12⟩ := hagree c
  exact Cert.Bridge.result_eq m ρ m' hpre c h0 h1 h2 h3 h4 h5 h6 h7 h8 h9 h10 h11 h12

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
